-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S8192x1 : Shape := ⟨2, ![8192, 1]⟩
abbrev S1024x512 : Shape := ⟨2, ![1024, 512]⟩
abbrev S1024x1 : Shape := ⟨2, ![1024, 1]⟩
abbrev S1024 : Shape := ⟨1, ![1024]⟩
abbrev S1x8192 : Shape := ⟨2, ![1, 8192]⟩
abbrev S512x512 : Shape := ⟨2, ![512, 512]⟩
abbrev S1x512 : Shape := ⟨2, ![1, 512]⟩
abbrev S_ : Shape := ⟨0, ![]⟩

abbrev nBuf : Space → Nat
  | .hbm => 23
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .bf16⟩
  | .hbm, ⟨4, _⟩ => ⟨S8192x1, .f32⟩
  | .hbm, ⟨5, _⟩ => ⟨S8192x1, .i32⟩
  | .hbm, ⟨6, _⟩ => ⟨S1x8192, .i32⟩
  | .hbm, ⟨7, _⟩ => ⟨S1x8192, .f32⟩
  | .hbm, ⟨8, _⟩ => ⟨S8192x1, .f32⟩
  | .hbm, ⟨9, _⟩ => ⟨S8192x1, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x1, .f32⟩
  | .local _ .vmem, ⟨7, _⟩ => ⟨S1024x1, .f32⟩
  | .local _ .vmem, ⟨8, _⟩ => ⟨S1024x512, .bf16⟩
  | .local _ .vmem, ⟨9, _⟩ => ⟨S1024x512, .bf16⟩
  | .local _ .vmem, ⟨10, _⟩ => ⟨S512x512, .bf16⟩
  | .local _ .vmem, ⟨11, _⟩ => ⟨S512x512, .bf16⟩
  | .local _ .vmem, ⟨12, _⟩ => ⟨S1024x1, .f32⟩
  | .local _ .vmem, ⟨13, _⟩ => ⟨S1024x1, .f32⟩
  | .local _ .vmem, ⟨14, _⟩ => ⟨S1x512, .f32⟩
  | .local _ .vmem, ⟨15, _⟩ => ⟨S1x512, .f32⟩
  | .local _ .vmem, ⟨16, _⟩ => ⟨S1024x1, .i32⟩
  | .local _ .vmem, ⟨17, _⟩ => ⟨S1024x1, .i32⟩
  | .local _ .vmem, ⟨18, _⟩ => ⟨S1x512, .i32⟩
  | .local _ .vmem, ⟨19, _⟩ => ⟨S1x512, .i32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v46 : BitVec 1 := Scalar.cmpi .eq arg1 c15_i32
  let v47 : BitVec 32 := Scalar.extui v46
  let c0_i32_26 : BitVec 32 := 0#32
  let v48 : BitVec 1 := Scalar.cmpi .ne v47 c0_i32_26
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192_S8192x1 : S8192.ShapeCasts S8192x1
  shapeCasts_S8192_S1x8192 : S8192.ShapeCasts S1x8192
  shapeCasts_S8192x1_S1x8192 : S8192x1.ShapeCasts S1x8192
  shapeCasts_S1024x1_S1024x1 : S1024x1.ShapeCasts S1024x1
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .bf16 = 32 ∨ (Rect.block (s := S8192x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .f32 = 32 ∨ (Rect.block (s := S1x8192) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .i32 = 32 ∨ (Rect.block (s := S8192x1) S1024x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x8192.size a
  hwx1_5 : ∀ i : grid1.Coords, EltTy.bits .i32 = 32 ∨ (Rect.block (s := S1x8192) S1x512.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S8192x1.size a
  hwx1_7 : ∀ i : grid1.Coords, EltTy.bits .f32 = 32 ∨ (Rect.block (s := S8192x1) S1024x1.size (cc1_transform_7 i) (hinb1_7 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_0) S1024x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v4_1) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S512x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_call2_v0 : Ref sig .tc := ⟨.hbm, 35, rfl⟩
abbrev main_call2_v1 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_call3_cst : Ref sig .tc := ⟨.hbm, 44, rfl⟩
abbrev main_call3_v0 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Basics.lean ====
/-
  Small facts both kernel regions use: the whole-block rectangles the bodies load and store through, that a store
  through such a rectangle covers its block, and the two conditions the second kernel branches on (the column-block
  coordinate is the first, 0, or the last, 15).
-/
import proofs.«181903_j28338194219418_1_alg».proof.Proof.Gen.Kernel.Launch
import proofs.«181903_j28338194219418_1_alg».proof.Proof.Gen.Kernel.Skeleton
import proofs.«181903_j28338194219418_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offset vector of a rectangle that starts at the block's origin. -/
theorem hz2 : (![0, 0] : Fin 2 → ℕ) = fun _ => 0 := by funext a; fin_cases a <;> rfl

/-- A rectangle at the origin with the block's own extents holds every index of the block. -/
theorem mem_unit_zero {S : Shape} {off : Fin S.rank → ℕ} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- The whole 1024 × 512 block and the whole 1024 × 1 block, as the rectangles the bodies access. -/
abbrev rWide : Rect S1024x512 := Rect.unit (s := S1024x512) ![0, 0] S1024x512.size inb_S1024x512_S1024x512_0_0
abbrev rCol : Rect S1024x1 := Rect.unit (s := S1024x1) ![0, 0] S1024x1.size inb_S1024x1_S1024x1_0_0

theorem cover_wide (p0 : Vec F S1024x512 .bf16) (y : S1024x512.Idx) :
    ∃ pc ∈ ([⟨rWide, p0⟩] : List (View.Piece (Elt F) S1024x512 .bf16)), y ∈ pc.1.set :=
  ⟨⟨rWide, p0⟩, List.mem_singleton_self _, mem_unit_zero hz2 inb_S1024x512_S1024x512_0_0 y⟩
theorem cover_col (p0 : Vec F S1024x1 .f32) (y : S1024x1.Idx) :
    ∃ pc ∈ ([⟨rCol, p0⟩] : List (View.Piece (Elt F) S1024x1 .f32)), y ∈ pc.1.set :=
  ⟨⟨rCol, p0⟩, List.mem_singleton_self _, mem_unit_zero hz2 inb_S1024x1_S1024x1_0_0 y⟩
/-- A store of the whole column block, whatever was stored before it, covers the block. -/
theorem cover_cons_col (w : S1024x1.Idx → Elt F .f32) (L : List (View.Piece (Elt F) S1024x1 .f32)) (y : S1024x1.Idx) :
    ∃ p ∈ ((⟨rCol, w⟩ : View.Piece (Elt F) S1024x1 .f32) :: L), y ∈ p.1.set :=
  ⟨⟨rCol, w⟩, List.mem_cons_self, mem_unit_zero hz2 inb_S1024x1_S1024x1_0_0 y⟩

/-- The second kernel's first branch is taken where the column-block coordinate is 0 (the running extremes are reset), -/
abbrev condFirst (i : grid1.Coords) : Prop := (Scalar.cmpi .ne (Scalar.extui (Scalar.cmpi .eq (BitVec.ofNat 32 (i 1).val) 0#32)) 0#32) = 1#1
/-- its last where it is 15 (the running extremes are copied to the results' blocks). -/
abbrev condLast (i : grid1.Coords) : Prop := k1_cond2 i = 1#1

theorem hcondFirst : ∀ t : Fin cfg1.N, condFirst (grid1.coords t) ↔ t.val % 16 = 0 :=
  (by decide +kernel : ∀ t : Fin grid1.N, condFirst (grid1.coords t) ↔ t.val % 16 = 0)
theorem hcondLast : ∀ t : Fin cfg1.N, condLast (grid1.coords t) ↔ t.val % 16 = 15 :=
  (by decide +kernel : ∀ t : Fin grid1.N, condLast (grid1.coords t) ↔ t.val % 16 = 15)

end Cert.Kernel.Hand

end
-- ==== Proof.K.Prep.lean ====
/-
  The first kernel region (one grid axis of 8 row blocks of 1024 rows): at each point it reads a block of each
  of the two f32 operands, stores their elementwise product narrowed to bf16 into the first result's block and the
  row sums of the product's squares into the second result's block. Every point loads and stores through whole
  rectangles, keeps nothing between points, and writes each result block exactly once: what a staging buffer holds
  after the body is one pure function of the two operand blocks.
-/
import proofs.«181903_j28338194219418_1_alg».proof.Proof.K.Basics
import proofs.«181903_j28338194219418_1_alg».proof.Proof.Gen.Kernel.Launch
import proofs.«181903_j28338194219418_1_alg».proof.Proof.Gen.Kernel.Skeleton
import proofs.«181903_j28338194219418_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's staging buffer holds its block at every point, for any proof data over these arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first result's block after the body: the narrowed product of the two operand blocks. -/
def prodBlk (x0 x1 : Vec F S1024x512 .f32) : Vec F S1024x512 .bf16 :=
  View.canon [⟨rWide, k0_pay2 (View.ld x0 rWide) (View.ld x1 rWide)⟩]
/-- The second result's block after the body: per row, the sum of the squares of the product. -/
def sqBlk (x0 x1 : Vec F S1024x512 .f32) : Vec F S1024x1 .f32 :=
  View.canon [⟨rCol, k0_pay3 (View.ld x0 rWide) (View.ld x1 rWide)⟩]

set_option maxHeartbeats 1000000 in
/-- The body on whole staging buffers: the operands' at contents `x0`, `x1`, the results' at anything; it ends with the
    operands' as they were and the results' at the two functions above. -/
theorem sound_prep (c : Dev nD) (E : Set ℕ) (i : grid0.Coords) (arg1 : Memref sig .tc .vmem S1024x512 .f32) (harg1 : arg1.IsWhole) (arg2 : Memref sig .tc .vmem S1024x512 .f32) (harg2 : arg2.IsWhole)
    (arg3 : Memref sig .tc .vmem S1024x512 .bf16) (harg3 : arg3.IsWhole) (arg4 : Memref sig .tc .vmem S1024x1 .f32) (harg4 : arg4.IsWhole)
    (x0 x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (prodBlk x0 x1) ∗ owns (c : Thread nD τ) arg4 fullShare (sqBlk x0 x1)) -∗ K ⟨⟩))
      ⊢ wp frame (wpE (defs₀ (F := F)) Variants.none c none) E (cc0__preprocess_kernel i arg1 harg1 arg2 harg2 arg3 harg3 arg4 harg4) K := by
  simp only [cc0__preprocess_kernel_eq_skeleton]; unfold cc0__preprocess_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_wide _)
  iexists _; isplitr
  swap; · iexact H3
  ipureintro
  exact View.read_writes_eq_canon _ _ _ (cover_col _)

/-- The region's proof data on core `c`: the arrays as the region finds them; after the body at point `t` each operand
    buffer at its block and each result buffer at its function of the two operand blocks; nothing kept between points
    beyond the scoped buffers no window stages and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodBlk (iblk0 V c 0 t) (iblk0 V c 1 t)
    | ⟨3, _⟩ => sqBlk (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prodBlk (iblk0 V c 0 t) (iblk0 V c 1 t) := by dsimp only [dat0]
theorem after0_3 (c : Dev nD) (t : Fin cfg0.N) : (dat0 V c).after 3 t = sqBlk (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_prep c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.PairDefs.lean ====
/-
  The proof data of the second kernel region (grid 8 × 16: row blocks of 1024 by column blocks of 512). At a point
  (i, j) the body computes, for the 1024 rows of block i against the 512 columns of block j, each row's greatest
  positive distance and least negative distance, and folds them into two scratch columns that it resets at j = 0 and
  copies to the two results' blocks at j = 15. So what the scratch holds after a point is a recursion over the
  points: the fold of this point's row extremes into what the point before left, or into the reset value where the
  column block is the first.
-/
import proofs.«181903_j28338194219418_1_alg».proof.Proof.K.Basics

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's staging buffer holds its block at every point, fetched there or not (a window indexed by
    the row block alone is fetched only where the row block changes, and its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The six operand blocks at a point, each at its literal type: the row block and the column block of the narrowed
    products, the row sums of squares as a column and as a row, the labels as a column and as a row. -/
abbrev rowsBlk (c : Dev nD) (t : Fin cfg1.N) : Vec F S1024x512 .bf16 := iblk1 V c 0 t
abbrev colsBlk (c : Dev nD) (t : Fin cfg1.N) : Vec F S512x512 .bf16 := iblk1 V c 1 t
abbrev sqRowBlk (c : Dev nD) (t : Fin cfg1.N) : Vec F S1024x1 .f32 := iblk1 V c 2 t
abbrev sqColBlk (c : Dev nD) (t : Fin cfg1.N) : Vec F S1x512 .f32 := iblk1 V c 3 t
abbrev labRowBlk (c : Dev nD) (t : Fin cfg1.N) : Vec F S1024x1 .i32 := iblk1 V c 4 t
abbrev labColBlk (c : Dev nD) (t : Fin cfg1.N) : Vec F S1x512 .i32 := iblk1 V c 5 t

/-- This point's row maxima over the positives and row minima over the negatives. -/
def curMax (c : Dev nD) (t : Fin cfg1.N) : Vec F S1024x1 .f32 :=
  k1_pay7 (rowsBlk V c t) (colsBlk V c t) (sqRowBlk V c t) (sqColBlk V c t) (labRowBlk V c t) (labColBlk V c t)
def curMin (c : Dev nD) (t : Fin cfg1.N) : Vec F S1024x1 .f32 :=
  k1_pay8 (rowsBlk V c t) (colsBlk V c t) (sqRowBlk V c t) (sqColBlk V c t) (labRowBlk V c t) (labColBlk V c t)

/-- What the first scratch column holds after point `n`: this point's row maxima folded into the reset value where the
    column block is the first (`n` a multiple of 16), else into what the point before left. -/
def runMax (c : Dev nD) : (n : ℕ) → n < cfg1.N → Vec F S1024x1 .f32
  | 0, h => k1_pay1 (curMax V c ⟨0, h⟩) (k1_pay3 (F := F))
  | n + 1, h => if (n + 1) % 16 = 0 then k1_pay1 (curMax V c ⟨n + 1, h⟩) (k1_pay3 (F := F))
      else k1_pay1 (curMax V c ⟨n + 1, h⟩) (runMax c n (Nat.lt_of_succ_lt h))
/-- The same for the second scratch column and the row minima. -/
def runMin (c : Dev nD) : (n : ℕ) → n < cfg1.N → Vec F S1024x1 .f32
  | 0, h => k1_pay2 (curMin V c ⟨0, h⟩) (k1_pay4 (F := F))
  | n + 1, h => if (n + 1) % 16 = 0 then k1_pay2 (curMin V c ⟨n + 1, h⟩) (k1_pay4 (F := F))
      else k1_pay2 (curMin V c ⟨n + 1, h⟩) (runMin c n (Nat.lt_of_succ_lt h))

theorem runMax_first (c : Dev nD) (t : Fin cfg1.N) (h : t.val % 16 = 0) :
    runMax V c t.val t.isLt = k1_pay1 (curMax V c t) (k1_pay3 (F := F)) := by
  obtain ⟨n, hn⟩ := t
  cases n with
  | zero => rfl
  | succ n => exact if_pos h
theorem runMax_next (c : Dev nD) (t : Fin cfg1.N) (h : ¬t.val % 16 = 0) :
    runMax V c t.val t.isLt = k1_pay1 (curMax V c t) (runMax V c (t.val - 1) (Nat.lt_of_le_of_lt (Nat.sub_le _ _) t.isLt)) := by
  obtain ⟨n, hn⟩ := t
  cases n with
  | zero => exact absurd (Nat.zero_mod _) h
  | succ n => exact if_neg h
theorem runMin_first (c : Dev nD) (t : Fin cfg1.N) (h : t.val % 16 = 0) :
    runMin V c t.val t.isLt = k1_pay2 (curMin V c t) (k1_pay4 (F := F)) := by
  obtain ⟨n, hn⟩ := t
  cases n with
  | zero => rfl
  | succ n => exact if_pos h
theorem runMin_next (c : Dev nD) (t : Fin cfg1.N) (h : ¬t.val % 16 = 0) :
    runMin V c t.val t.isLt = k1_pay2 (curMin V c t) (runMin V c (t.val - 1) (Nat.lt_of_le_of_lt (Nat.sub_le _ _) t.isLt)) := by
  obtain ⟨n, hn⟩ := t
  cases n with
  | zero => exact absurd (Nat.zero_mod _) h
  | succ n => exact if_neg h

/-- The two scratch operands, whole scoped buffers of the kernel's own. -/
abbrev scMax : Memref sig .tc .vmem S1024x1 .f32 := Memref.whole cc1_scratch0
abbrev scMin : Memref sig .tc .vmem S1024x1 .f32 := Memref.whole cc1_scratch1

/-- The core's other scoped buffers no window of this region stages (the first region's staging buffers), each at
    some contents. -/
abbrev otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the launch hands the region besides the windows: those buffers, the two scratch columns at anything and the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scMax fullShare d) ∗ (∃ d, owns (c : Thread nD τ) scMin fullShare d)) ∗ (∃ r, prngReg c r)) := by
  unfold Pipeline.ΦA; rw [scopedRest1_eq]; simp only [scMax, scMin, owns_whole]; try rfl

/-- The region's invariant before point `n`: before the first point what the launch hands over; afterwards the same
    with the two scratch columns at the running extremes the point before left. -/
def PhiRun (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (runMax V c n hn) ∗ owns (c : Thread nD τ) scMin fullShare (runMin V c n hn)) ∗ (∃ r, prngReg c r))

theorem PhiRun_zero (c : Dev nD) (n : ℕ) (h : n ≤ cfg1.N) (hz : n = 0) : PhiRun V c n h = Pipeline.ΦA spec1 c := by
  subst hz; rfl
theorem PhiRun_succ (c : Dev nD) (n : ℕ) (hn : n < cfg1.N) :
    PhiRun V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (runMax V c n hn) ∗ owns (c : Thread nD τ) scMin fullShare (runMin V c n hn)) ∗ (∃ r, prngReg c r)) := rfl
theorem PhiRun_pos (c : Dev nD) (n : ℕ) (h : n ≤ cfg1.N) (hz : n ≠ 0) :
    PhiRun V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (runMax V c (n - 1) (by omega)) ∗ owns (c : Thread nD τ) scMin fullShare (runMin V c (n - 1) (by omega))) ∗ (∃ r, prngReg c r)) := by
  cases n with
  | zero => exact absurd rfl hz
  | succ n => rfl

/-- The region's proof data on core `c`: the arrays as the region finds them; after the body at point `t` each
    operand buffer at its block and the two result buffers at the running extremes after `t` (consulted only where
    the column block is the last: elsewhere the body leaves those buffers alone and nothing is written back); the
    invariant above; nothing owed. The array of narrowed products reaches the kernel through two windows (its row
    block and its column block), which share it half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => runMax V c t.val t.isLt
    | ⟨7, _⟩ => runMin V c t.val t.isLt
  Φ t := PhiRun V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem PhiRun_castSucc (c : Dev nD) (t : Fin cfg1.N) :
    (dat1 V c).Φ t.castSucc = PhiRun V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = runMax V c t.val t.isLt := by dsimp only [dat1]
theorem after1_7 (c : Dev nD) (t : Fin cfg1.N) : (dat1 V c).after 7 t = runMin V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

end

end Cert.Kernel.Hand

end
-- ==== Proof.K.PairBody.lean ====
/-
  The second kernel's body at one grid point, in the three combinations of its two branches the grid meets (the
  column-block coordinate first, in between, last), run on whole staging buffers at named contents. The two scratch
  buffers hold running extremes over the column blocks seen so far: the row maxima of the positives' distances and the
  row minima of the negatives'. Each case ends with every operand buffer as it was and the scratch (and, at the last
  column block, the result buffers) at a pure function of the operand blocks and of what the scratch held.
-/
import proofs.«181903_j28338194219418_1_alg».proof.Proof.K.Basics

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point whose column block is the first (and not the last): the body resets the two running extremes to −∞ and +∞, folds this block's row maxima and minima into them, and leaves the results' staging buffers as it found them. -/
theorem sound_pair_first (c : Dev nD) (E : Set ℕ) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : condFirst i) (hc1 : ¬condLast i)
    (x0 : Vec F S1024x512 .bf16) (x1 : Vec F S512x512 .bf16) (x2 : Vec F S1024x1 .f32) (x3 : Vec F S1x512 .f32) (x4 : Vec F S1024x1 .i32) (x5 : Vec F S1x512 .i32)
    (xi6 xi7 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xi7 ∗ owns (c : Thread nD τ) arg10 fullShare (k1_pay1 (k1_pay7 x0 x1 x2 x3 x4 x5) (k1_pay3 (F := F))) ∗ owns (c : Thread nD τ) arg11 fullShare (k1_pay2 (k1_pay8 x0 x1 x2 x3 x4 x5) (k1_pay4 (F := F)))) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]
  · iexists _; isplitr
    swap; · iexact H9
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]

set_option maxHeartbeats 1000000 in
/-- At a point whose column block is neither the first nor the last: the body folds this block's row maxima and minima into the running extremes it finds, and leaves the results' staging buffers as it found them. -/
theorem sound_pair_mid (c : Dev nD) (E : Set ℕ) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : ¬condFirst i) (hc1 : ¬condLast i)
    (x0 : Vec F S1024x512 .bf16) (x1 : Vec F S512x512 .bf16) (x2 : Vec F S1024x1 .f32) (x3 : Vec F S1x512 .f32) (x4 : Vec F S1024x1 .i32) (x5 : Vec F S1x512 .i32)
    (xi6 xi7 xs0 xs1 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xi7 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xi7 ∗ owns (c : Thread nD τ) arg10 fullShare (k1_pay1 (k1_pay7 x0 x1 x2 x3 x4 x5) xs0) ∗ owns (c : Thread nD τ) arg11 fullShare (k1_pay2 (k1_pay8 x0 x1 x2 x3 x4 x5) xs1)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]
  · iexists _; isplitr
    swap; · iexact H9
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]

set_option maxHeartbeats 1000000 in
/-- At a point whose column block is the last (and not the first): the body folds this block's row maxima and minima into the running extremes it finds and copies the two to the results' staging buffers. -/
theorem sound_pair_last (c : Dev nD) (E : Set ℕ) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : ¬condFirst i) (hc1 : condLast i)
    (x0 : Vec F S1024x512 .bf16) (x1 : Vec F S512x512 .bf16) (x2 : Vec F S1024x1 .f32) (x3 : Vec F S1x512 .f32) (x4 : Vec F S1024x1 .i32) (x5 : Vec F S1x512 .i32)
    (xs0 xs1 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare (k1_pay1 (k1_pay7 x0 x1 x2 x3 x4 x5) xs0) ∗ owns (c : Thread nD τ) arg9 fullShare (k1_pay2 (k1_pay8 x0 x1 x2 x3 x4 x5) xs1) ∗ owns (c : Thread nD τ) arg10 fullShare (k1_pay1 (k1_pay7 x0 x1 x2 x3 x4 x5) xs0) ∗ owns (c : Thread nD τ) arg11 fullShare (k1_pay2 (k1_pay8 x0 x1 x2 x3 x4 x5) xs1)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf0; subst hf1; subst hf2; subst hf3; subst hf4; subst hf5; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]
  isplitl [H7]
  · iexists _; isplitr
    swap; · iexact H7
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]
  isplitl [H8]
  · iexists _; isplitr
    swap; · iexact H8
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]
  · iexists _; isplitr
    swap; · iexact H9
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]

end Cert.Kernel.Hand

end
-- ==== Proof.K.PairObl.lean ====
/-
  The second kernel region's obligation at every grid point: from the invariant before the point (the scratch columns
  at the running extremes the point before left, or at anything before the first point), the operand buffers at their
  blocks and the result buffers at whatever they hold, the body ends with the invariant after the point, the operand
  buffers unchanged, and the result buffers either untouched (their window idle there: the column block is not the
  last) or at the running extremes (where it is the last, and the pipeline writes them back).
-/
import proofs.«181903_j28338194219418_1_alg».proof.Proof.K.PairDefs
import proofs.«181903_j28338194219418_1_alg».proof.Proof.K.PairBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the column block is not the last, result window 6 is idle and is not written back; where it is, the window is live. -/
theorem idleAt1_6 : ∀ t : Fin cfg1.N, ¬condLast (grid1.coords t) → cfg1.idle 6 (grid1.coords t) = true := by decide +kernel
theorem noFlush1_6 : ∀ t : Fin cfg1.N, ¬condLast (grid1.coords t) → (cfg1.win 6).flush t = false := by decide +kernel
theorem liveAt1_6 : ∀ t : Fin cfg1.N, condLast (grid1.coords t) → cfg1.idle 6 (grid1.coords t) = false := by decide +kernel
/-- Where the column block is not the last, result window 7 is idle and is not written back; where it is, the window is live. -/
theorem idleAt1_7 : ∀ t : Fin cfg1.N, ¬condLast (grid1.coords t) → cfg1.idle 7 (grid1.coords t) = true := by decide +kernel
theorem noFlush1_7 : ∀ t : Fin cfg1.N, ¬condLast (grid1.coords t) → (cfg1.win 7).flush t = false := by decide +kernel
theorem liveAt1_7 : ∀ t : Fin cfg1.N, condLast (grid1.coords t) → cfg1.idle 7 (grid1.coords t) = false := by decide +kernel

section
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the position of the column block says which of the three runs applies; the invariant hands
    the run the scratch columns at what the point before left (at anything before the first point) and takes them back
    at this point's running extremes. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiRun V c (t.val + 1) t.isLt from rfl, PhiRun_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 128 := lt_of_lt_of_eq t.isLt (show cfg1.N = 128 from N_1)
  by_cases h0 : t.val % 16 = 0
  · have hnl : ¬condLast (grid1.coords t) := fun h => by have := (hcondLast t).mp h; omega
    rw [Dat.leavesExact_idle (dat1 V c) 6 t (idleAt1_6 t hnl) (noFlush1_6 t hnl), Dat.leavesExact_idle (dat1 V c) 7 t (idleAt1_7 t hnl) (noFlush1_7 t hnl)]
    rw [runMax_first V c t h0, runMin_first V c t h0]
    by_cases hz : t.val = 0
    · rw [PhiRun_castSucc V c t, PhiRun_zero V c _ _ hz, PhiA1_eq]
      iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_pair_first c Set.univ (grid1.coords t) _ _ _ _ _ _ _ _ _ _ _ _ _ _ _ _ _ _ _ _ ((hcondFirst t).mpr h0) hnl (rowsBlk V c t) (colsBlk V c t) (sqRowBlk V c t) (sqColBlk V c t) (labRowBlk V c t) (labColBlk V c t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [R0 R1 R2 R3 R4 R5 R6 R7 HS0 HS1 Hg]
      · isplitl [R0 R1 R2 R3 R4 R5 R6 R7 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiRun_castSucc V c t, PhiRun_pos V c _ _ hz]
      iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_pair_first c Set.univ (grid1.coords t) _ _ _ _ _ _ _ _ _ _ _ _ _ _ _ _ _ _ _ _ ((hcondFirst t).mpr h0) hnl (rowsBlk V c t) (colsBlk V c t) (sqRowBlk V c t) (sqColBlk V c t) (labRowBlk V c t) (labColBlk V c t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [R0 R1 R2 R3 R4 R5 R6 R7 HS0 HS1 Hg]
      · isplitl [R0 R1 R2 R3 R4 R5 R6 R7 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun h => h0 (by rw [h])
    have hnf : ¬condFirst (grid1.coords t) := fun h => h0 ((hcondFirst t).mp h)
    by_cases h2 : t.val % 16 = 15
    · have hl : condLast (grid1.coords t) := (hcondLast t).mpr h2
      rw [show (dat1 V c).leavesExact 6 t = owns (c : Thread nD τ) (st1_6 t) fullShare ((dat1 V c).after 6 t) from by
        unfold Dat.leavesExact; rw [liveAt1_6 t hl], after1_6]
      rw [show (dat1 V c).leavesExact 7 t = owns (c : Thread nD τ) (st1_7 t) fullShare ((dat1 V c).after 7 t) from by
        unfold Dat.leavesExact; rw [liveAt1_7 t hl], after1_7]
      rw [runMax_next V c t h0, runMin_next V c t h0]
      rw [PhiRun_castSucc V c t, PhiRun_pos V c _ _ hz]
      iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_pair_last c Set.univ (grid1.coords t) _ _ _ _ _ _ _ _ _ _ _ _ _ _ _ _ _ _ _ _ hnf hl (rowsBlk V c t) (colsBlk V c t) (sqRowBlk V c t) (sqColBlk V c t) (labRowBlk V c t) (labColBlk V c t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [R0 R1 R2 R3 R4 R5 R6 R7 HS0 HS1 Hg]
      · isplitl [R0 R1 R2 R3 R4 R5 R6 R7 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hnl : ¬condLast (grid1.coords t) := fun h => h2 ((hcondLast t).mp h)
      rw [Dat.leavesExact_idle (dat1 V c) 6 t (idleAt1_6 t hnl) (noFlush1_6 t hnl), Dat.leavesExact_idle (dat1 V c) 7 t (idleAt1_7 t hnl) (noFlush1_7 t hnl)]
      rw [runMax_next V c t h0, runMin_next V c t h0]
      rw [PhiRun_castSucc V c t, PhiRun_pos V c _ _ hz]
      iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_pair_mid c Set.univ (grid1.coords t) _ _ _ _ _ _ _ _ _ _ _ _ _ _ _ _ _ _ _ _ hnf hnl (rowsBlk V c t) (colsBlk V c t) (sqRowBlk V c t) (sqColBlk V c t) (labRowBlk V c t) (labColBlk V c t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [R0 R1 R2 R3 R4 R5 R6 R7 HS0 HS1 Hg]
      · isplitl [R0 R1 R2 R3 R4 R5 R6 R7 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiRun V c 0 (Nat.zero_le _) from rfl, PhiRun_zero V c 0 _ rfl]
  try exact Idealize.SL.BI.Entails.refl _

/-- After the last point the invariant gives the same back, the scratch columns' contents forgotten. -/
theorem hout1 (c : Dev nD) : (dat1 V c).Φ (Fin.last cfg1.N) ⊢ Pipeline.ΦA spec1 c := by
  rw [show (dat1 V c).Φ (Fin.last cfg1.N) = PhiRun V c (Fin.last cfg1.N).val (Nat.le_of_lt_succ (Fin.last cfg1.N).isLt) from rfl,
    PhiRun_pos V c _ _ (by rw [Fin.val_last]; have : cfg1.N = 128 := N_1; omega), PhiA1_eq]
  iintro ⟨⟨R0, R1, R2, R3, R4, R5, R6, R7, HS0, HS1⟩, Hg⟩
  isplitl [R0 R1 R2 R3 R4 R5 R6 R7 HS0 HS1]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [HS0]; · iexists _; iexact HS0
    iexists _; iexact HS1
  iexact Hg

end

end Cert.Kernel.Hand

end
-- ==== Proof.K.RunFold.lean ====
/-
  The contents of the core's buffers at each boundary of @main — the launch; after the first kernel region (its two
  results' arrays at what its write-backs leave); after the three reshapes between the regions; after the second region
  (its two results' arrays likewise); after each of the three closing stretches of host operations — as a fold from
  the launch memory, the proof data of both regions at their entry contents, and the first region as a segment of
  @main: entered from every unscoped buffer at the launch contents, left with them at the next boundary's.
-/
import proofs.«181903_j28338194219418_1_alg».proof.Proof.K.Prep
import proofs.«181903_j28338194219418_1_alg».proof.Proof.K.PairObl

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the reshapes between the regions (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit: its two results' arrays at what the pipeline leaves, every other buffer as entered
    (two of its operand windows are on one array, so the contents are written out reference by reference). -/
def W3 (c : Dev nD) : Valuation τ sig (Elt F) :=
  Function.update (Function.update (W2 m ρ c) (Proc.devRef .tc main_v4_0) ((dat1 (V2 m ρ) c).arrAt 6 cfg1.N))
    (Proc.devRef .tc main_v4_1) ((dat1 (V2 m ρ) c).arrAt 7 cfg1.N)
theorem W3_v4_0 (c : Dev nD) : W3 m ρ c (Proc.devRef .tc main_v4_0) = (dat1 (V2 m ρ) c).arrAt 6 cfg1.N := by
  unfold W3
  rw [Function.update_of_ne (StableHlo.devRef_ne_of_ne (by decide) : (Proc.devRef .tc main_v4_0 : DevRef τ sig) ≠ Proc.devRef .tc main_v4_1),
    Function.update_self]
theorem W3_v4_1 (c : Dev nD) : W3 m ρ c (Proc.devRef .tc main_v4_1) = (dat1 (V2 m ρ) c).arrAt 7 cfg1.N := by
  unfold W3; rw [Function.update_self]
theorem W3_of_ne (c : Dev nD) (b : Ref sig .tc) (h0 : b ≠ main_v4_0) (h1 : b ≠ main_v4_1) :
    W3 m ρ c (Proc.devRef .tc b) = W2 m ρ c (Proc.devRef .tc b) := by
  unfold W3
  rw [Function.update_of_ne (StableHlo.devRef_ne_of_ne h1 : (Proc.devRef .tc b : DevRef τ sig) ≠ Proc.devRef .tc main_v4_1),
    Function.update_of_ne (StableHlo.devRef_ne_of_ne h0 : (Proc.devRef .tc b : DevRef τ sig) ≠ Proc.devRef .tc main_v4_0)]
abbrev V3 : (c : Dev nD) → (b : Ref sig .tc) → Buf (Elt F) ((c : Thread nD τ).loc b) := fun c b => W3 m ρ c b
/-- After each of the three closing stretches. -/
abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)

/-! ## The proof data family and what rides beside the buffers -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

set_option backward.isDefEq.respectTransparency.types false in
/-- The first region: entered from every unscoped buffer at the launch contents, left with them at the next boundary's.
    Its arrays are split out of the unscoped buffers and put back at the exit contents; the generator register goes into
    the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunPair.lean ====
/-
  The second kernel region as a segment of @main: entered from every unscoped buffer at the contents the reshapes
  left, left with them at the next boundary's (its two results' arrays replaced by what the write-backs leave). The
  array of narrowed products reaches the kernel through two operand windows; on entry its buffer's full share is
  dealt to them half and half, and on exit — both windows' final contents being the array as entered — the halves are
  put back together.
-/
import proofs.«181903_j28338194219418_1_alg».proof.Proof.K.RunFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Arrays
variable (V : (c : Dev nD) → (b : Ref sig .tc) → Buf (Elt F) ((c : Thread nD τ).loc b))

/-- The buffers behind the second region's windows' arrays, one by one (seven buffers for eight windows). -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0_0) ↦{fullShare} V' main_v0_0)
      ∗ (((c : Thread nD τ).loc main_v0_1) ↦{fullShare} V' main_v0_1)
      ∗ (((c : Thread nD τ).loc main_v3) ↦{fullShare} V' main_v3)
      ∗ (((c : Thread nD τ).loc main_v1) ↦{fullShare} V' main_v1)
      ∗ (((c : Thread nD τ).loc main_v2) ↦{fullShare} V' main_v2)
      ∗ (((c : Thread nD τ).loc main_v4_0) ↦{fullShare} V' main_v4_0)
      ∗ (((c : Thread nD τ).loc main_v4_1) ↦{fullShare} V' main_v4_1)) := by
  unfold Pipeline.arrBufs
  rw [bigSep_eq_bigSepL_of_eq [main_v0_0, main_v0_1, main_v3, main_v1, main_v2, main_v4_0, main_v4_1] (by decide) (by decide)]
  rfl

/-- The share each window's array is held at: the two windows on the products' array a half each, the others all. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl

/-- A window's array is a whole buffer, held over its whole index set at the window's share. -/
theorem arr_term1 (c : Dev nD) (w : Fin cfg1.W) (q : PosShare TreeShare) (hq : (dat1 V c).share w = q) (G : Buf (Elt F) ((cfg1.win w).arr.view.loc (c : Thread nD τ))) :
    ((cfg1.win w).arr.view.loc (c : Thread nD τ) ↦[(cfg1.win w).arr.view.set]{(dat1 V c).share w} G : sProp 𝕄)
      = ((cfg1.win w).arr.view.loc (c : Thread nD τ) ↦{q} G) := by
  rw [hq, (arr_whole1 w).set_eq_univ]

/-- The region's arrays as the pipeline holds them, window by window: the two windows on the products' array at
    half the full share each, every other window's array at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0_0) ↦{fullShare.left} (G 0))
      ∗ (((c : Thread nD τ).loc main_v0_0) ↦{fullShare.right} (G 1))
      ∗ (((c : Thread nD τ).loc main_v0_1) ↦{fullShare} (G 2))
      ∗ (((c : Thread nD τ).loc main_v3) ↦{fullShare} (G 3))
      ∗ (((c : Thread nD τ).loc main_v1) ↦{fullShare} (G 4))
      ∗ (((c : Thread nD τ).loc main_v2) ↦{fullShare} (G 5))
      ∗ (((c : Thread nD τ).loc main_v4_0) ↦{fullShare} (G 6))
      ∗ (((c : Thread nD τ).loc main_v4_1) ↦{fullShare} (G 7))) := by
  unfold Dat.arrays
  rw [bigSep_W1]
  exact congrArg₂ _ (arr_term1 V c 0 _ (share1_0 V c) _) (congrArg₂ _ (arr_term1 V c 1 _ (share1_1 V c) _) (congrArg₂ _ (arr_term1 V c 2 _ (share1_2 V c) _)
    (congrArg₂ _ (arr_term1 V c 3 _ (share1_3 V c) _) (congrArg₂ _ (arr_term1 V c 4 _ (share1_4 V c) _) (congrArg₂ _ (arr_term1 V c 5 _ (share1_5 V c) _)
    (congrArg₂ _ (arr_term1 V c 6 _ (share1_6 V c) _) (arr_term1 V c 7 _ (share1_7 V c) _)))))))

/-- ENTRY: the seven buffers at contents `V'` are the eight windows' arrays at the same contents, -/
theorem arrays1_of_bufs (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (Pipeline.arrBufs (Ix := Unit) (Name := ℕ) (U := UR sig nD τ) (Lvl := ℕ) spec1 c V' : sProp 𝕄) ⊢ (dat1 V c).arrays G := by
  rw [arrBufs1_eq, arrays1_eq, hG 0, hG 1, hG 2, hG 3, hG 4, hG 5, hG 6, hG 7]
  iintro ⟨H00, H01, H3, H1, H2, H40, H41⟩
  ihave Hs := (pointsTo_share (PosShare.mem_left_op_right fullShare)).1 $$ H00
  icases Hs with ⟨Hl, Hr⟩
  isplitl [Hl]; · iexact Hl
  isplitl [Hr]; · iexact Hr
  isplitl [H01]; · iexact H01
  isplitl [H3]; · iexact H3
  isplitl [H1]; · iexact H1
  isplitl [H2]; · iexact H2
  isplitl [H40]; · iexact H40
  iexact H41

/-- EXIT: and back. -/
theorem bufs_of_arrays1 (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    ((dat1 V c).arrays G : sProp 𝕄) ⊢ Pipeline.arrBufs (Ix := Unit) (Name := ℕ) (U := UR sig nD τ) (Lvl := ℕ) spec1 c V' := by
  rw [arrBufs1_eq, arrays1_eq, hG 0, hG 1, hG 2, hG 3, hG 4, hG 5, hG 6, hG 7]
  iintro ⟨Hl, Hr, H01, H3, H1, H2, H40, H41⟩
  isplitl [Hl Hr]
  · iapply (pointsTo_share (PosShare.mem_left_op_right fullShare)).2
    isplitl [Hl]; · iexact Hl
    iexact Hr
  isplitl [H01]; · iexact H01
  isplitl [H3]; · iexact H3
  isplitl [H1]; · iexact H1
  isplitl [H2]; · iexact H2
  isplitl [H40]; · iexact H40
  iexact H41

end Arrays

/-- The unscoped buffers that are no array of the second region do not change across it. -/
theorem rest1_congr (c : Dev nD) :
    (Pipeline.unscopedRest (Ix := Unit) (Name := ℕ) (U := UR sig nD τ) (Lvl := ℕ) spec1 c (V2 m ρ c) : sProp 𝕄)
      = Pipeline.unscopedRest (Ix := Unit) (Name := ℕ) (U := UR sig nD τ) (Lvl := ℕ) spec1 c (V3 m ρ c) := by
  unfold Pipeline.unscopedRest
  refine bigSep_congr fun b hb => ?_
  have hb' := (Finset.mem_sdiff.mp hb).2
  have h0 : b ≠ main_v4_0 := fun e => hb' (Finset.mem_image.mpr ⟨6, Finset.mem_univ _, e.symm⟩)
  have h1 : b ≠ main_v4_1 := fun e => hb' (Finset.mem_image.mpr ⟨7, Finset.mem_univ _, e.symm⟩)
  rw [show V3 m ρ c b = V2 m ρ c b from W3_of_ne m ρ c b h0 h1]

/-- At the region's exit each window's array holds the next boundary's contents: an operand's array what it held
    (nothing is written back to it), a result's array what the write-backs leave. -/
theorem hG1 (c : Dev nD) (w : Fin cfg1.W) : (dat1 (V2 m ρ) c).arrAt w cfg1.N = V3 m ρ c (Pipeline.arrRef spec1 w) := by
  match w with
  | ⟨0, _⟩ => exact ((dat1 (V2 m ρ) c).arrAt_in 0 rfl _).trans ((A_eq1 (V2 m ρ) c 0).trans (W3_of_ne m ρ c _ (by decide) (by decide)).symm)
  | ⟨1, _⟩ => exact ((dat1 (V2 m ρ) c).arrAt_in 1 rfl _).trans ((A_eq1 (V2 m ρ) c 1).trans (W3_of_ne m ρ c _ (by decide) (by decide)).symm)
  | ⟨2, _⟩ => exact ((dat1 (V2 m ρ) c).arrAt_in 2 rfl _).trans ((A_eq1 (V2 m ρ) c 2).trans (W3_of_ne m ρ c _ (by decide) (by decide)).symm)
  | ⟨3, _⟩ => exact ((dat1 (V2 m ρ) c).arrAt_in 3 rfl _).trans ((A_eq1 (V2 m ρ) c 3).trans (W3_of_ne m ρ c _ (by decide) (by decide)).symm)
  | ⟨4, _⟩ => exact ((dat1 (V2 m ρ) c).arrAt_in 4 rfl _).trans ((A_eq1 (V2 m ρ) c 4).trans (W3_of_ne m ρ c _ (by decide) (by decide)).symm)
  | ⟨5, _⟩ => exact ((dat1 (V2 m ρ) c).arrAt_in 5 rfl _).trans ((A_eq1 (V2 m ρ) c 5).trans (W3_of_ne m ρ c _ (by decide) (by decide)).symm)
  | ⟨6, _⟩ => exact (W3_v4_0 m ρ c).symm
  | ⟨7, _⟩ => exact (W3_v4_1 m ρ c).symm

/-- What the region's entry hands the invariant, and what the invariant gives back at the exit, in the shape the
    segment record asks for (no table is prefetched; the kernel has no semaphore of its own). -/
theorem hin1' (V : (c : Dev nD) → (b : Ref sig .tc) → Buf (Elt F) ((c : Thread nD τ).loc b)) (c : Dev nD) :
    iprop((∃ r, prngReg c r) ∗ Pipeline.prefHeld (Ix := Unit) (Name := ℕ) (U := UR sig nD τ) (Lvl := ℕ) (pcfgs (F := F) 1).pre c (fun _ => fullShare) (adm (F := F) 1).1 ∗ Pipeline.scopedRest (Ix := Unit) (Name := ℕ) (U := UR sig nD τ) (Lvl := ℕ) spec1 c)
      ⊢ ((dat1 V c).Φ 0 : sProp 𝕄) := by
  refine BIBase.Entails.trans ?_ (hin1 V c)
  unfold Pipeline.ΦA
  iintro ⟨Hp, -, Hr⟩
  isplitl [Hr]; · iexact Hr
  iexact Hp
theorem hout1' (V : (c : Dev nD) → (b : Ref sig .tc) → Buf (Elt F) ((c : Thread nD τ).loc b)) (c : Dev nD) :
    ((dat1 V c).Φ (Fin.last cfg1.N) : sProp 𝕄)
      ⊢ iprop((∃ r, prngReg c r) ∗ Pipeline.ownSems0 (Ix := Unit) (Name := ℕ) (U := UR sig nD τ) (Lvl := ℕ) (Val := Elt F) (fun k : PEmpty => k.elim) c ∗ Pipeline.scopedRest (Ix := Unit) (Name := ℕ) (U := UR sig nD τ) (Lvl := ℕ) spec1 c) := by
  rw [Pipeline.ownSems0_none]
  refine BIBase.Entails.trans (hout1 V c) ?_
  unfold Pipeline.ΦA
  iintro ⟨Hr, Hp⟩
  isplitl [Hp]; · iexact Hp
  isplitr; · iempintro
  iexact Hr

set_option maxHeartbeats 1000000 in
set_option backward.isDefEq.respectTransparency.types false in
/-- The second region: entered from every unscoped buffer at the contents after the reshapes, left with them at the next
    boundary's. The generator register goes into the region's invariant and comes out; nothing is owed; the kernel has
    no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs (Ix := Unit) (Name := ℕ) (U := UR sig nD τ) (Lvl := ℕ) c (V2 m ρ c) : sProp 𝕄)
        ⊢ iprop((pdats m ρ 1 c).arrays ((pdats m ρ 1 c).arrAt · 0) ∗ Pipeline.unscopedRest spec1 c (V2 m ρ c)) := by
      rw [Pipeline.unscopedBufs_split₀ (Pipeline.pin (pcfgs (F := F)) adm) 1 winFacts₀1.arr_unscoped c (V2 m ρ c)]
      exact sep_mono (arrays1_of_bufs (V2 m ρ) c (V2 m ρ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1' (V2 m ρ) c
  hout c := hout1' (V2 m ρ) c
  hexit c := by
    have hjoin : iprop((pdats m ρ 1 c).arrays ((pdats m ρ 1 c).arrAt · cfg1.N) ∗ Pipeline.unscopedRest spec1 c (V2 m ρ c))
        ⊢ (unscopedBufs (Ix := Unit) (Name := ℕ) (U := UR sig nD τ) (Lvl := ℕ) c (V3 m ρ c) : sProp 𝕄) := by
      rw [Pipeline.unscopedBufs_split₀ (Pipeline.pin (pcfgs (F := F)) adm) 1 winFacts₀1.arr_unscoped c (V3 m ρ c), rest1_congr m ρ c]
      exact sep_mono (bufs_of_arrays1 (V2 m ρ) c (V3 m ρ c) _ (hG1 m ρ c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/-
  @main from the launch to the return: the two kernel regions and the four stretches of host operations as segments,
  each entered from what the one before it left; every weakly fair execution terminates, nothing faults, and the final
  memory holds every unscoped buffer at the last boundary's contents. Read at the three argument arrays — no host
  operation writes one, the first region only reads the two float operands through its windows, no region touches the
  labels — this is the frame; read at the result it is what the value claim starts from.
-/
import proofs.«181903_j28338194219418_1_alg».proof.Proof.K.RunPair
import proofs.«181903_j28338194219418_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's six segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)) ]
/-- @main is the run of the segments. -/
theorem main_run (c : Dev nD) : main (F := F) c = Pipeline.Seg.run (segs m ρ) := (main_chain c).trans (by chain_rfl)

/-- The last thread state without the `owes`: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- THE RUN: from any memory with zero counters every weakly fair execution of @main on the TensorCore terminates,
    nothing faulting, and every final state holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps2_2 _ hostOps2_2_writes (r := main_arg0) (by decide)
    _ = W4 m ρ c (Proc.devRef .tc main_arg0) := StableHlo.after_of_writes_sub hostOps2_1 _ hostOps2_1_writes (r := main_arg0) (by decide)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide) (by decide)
    _ = W1 m ρ c (Proc.devRef .tc main_arg0) := StableHlo.after_of_writes_sub hostOps1 _ hostOps1_writes (r := main_arg0) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps2_2 _ hostOps2_2_writes (r := main_arg1) (by decide)
    _ = W4 m ρ c (Proc.devRef .tc main_arg1) := StableHlo.after_of_writes_sub hostOps2_1 _ hostOps2_1_writes (r := main_arg1) (by decide)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide) (by decide)
    _ = W1 m ρ c (Proc.devRef .tc main_arg1) := StableHlo.after_of_writes_sub hostOps1 _ hostOps1_writes (r := main_arg1) (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps2_2 _ hostOps2_2_writes (r := main_arg2) (by decide)
    _ = W4 m ρ c (Proc.devRef .tc main_arg2) := StableHlo.after_of_writes_sub hostOps2_1 _ hostOps2_1_writes (r := main_arg2) (by decide)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide) (by decide)
    _ = W1 m ρ c (Proc.devRef .tc main_arg2) := StableHlo.after_of_writes_sub hostOps1 _ hostOps1_writes (r := main_arg2) (by decide)
    _ = W0 m ρ c (Proc.devRef .tc main_arg2) := W1_of_ne m ρ c main_arg2 (by decide)
    _ = m ((c : Thread nD τ).loc main_arg2) := rfl

/-- THE FRAME: every weakly fair execution terminates, nothing faulting, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run m ρ)

end Cert.Kernel.Hand

end
-- ==== Proof.KI.Basics.lean ====
/-
  Small facts both kernel regions use: the whole-block rectangles the bodies load and store through, that a store
  through such a rectangle covers its block, and the two conditions the second kernel branches on (the column-block
  coordinate is the first, 0, or the last, 15).
-/
import proofs.«181903_j28338194219418_1_alg».proof.Proof.Gen.KernelIdeal.Launch
import proofs.«181903_j28338194219418_1_alg».proof.Proof.Gen.KernelIdeal.Skeleton
import proofs.«181903_j28338194219418_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offset vector of a rectangle that starts at the block's origin. -/
theorem hz2 : (![0, 0] : Fin 2 → ℕ) = fun _ => 0 := by funext a; fin_cases a <;> rfl

/-- A rectangle at the origin with the block's own extents holds every index of the block. -/
theorem mem_unit_zero {S : Shape} {off : Fin S.rank → ℕ} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- The whole 1024 × 512 block and the whole 1024 × 1 block, as the rectangles the bodies access. -/
abbrev rWide : Rect S1024x512 := Rect.unit (s := S1024x512) ![0, 0] S1024x512.size inb_S1024x512_S1024x512_0_0
abbrev rCol : Rect S1024x1 := Rect.unit (s := S1024x1) ![0, 0] S1024x1.size inb_S1024x1_S1024x1_0_0

theorem cover_wide (p0 : Vec F S1024x512 .bf16) (y : S1024x512.Idx) :
    ∃ pc ∈ ([⟨rWide, p0⟩] : List (View.Piece (Elt F) S1024x512 .bf16)), y ∈ pc.1.set :=
  ⟨⟨rWide, p0⟩, List.mem_singleton_self _, mem_unit_zero hz2 inb_S1024x512_S1024x512_0_0 y⟩
theorem cover_col (p0 : Vec F S1024x1 .f32) (y : S1024x1.Idx) :
    ∃ pc ∈ ([⟨rCol, p0⟩] : List (View.Piece (Elt F) S1024x1 .f32)), y ∈ pc.1.set :=
  ⟨⟨rCol, p0⟩, List.mem_singleton_self _, mem_unit_zero hz2 inb_S1024x1_S1024x1_0_0 y⟩
/-- A store of the whole column block, whatever was stored before it, covers the block. -/
theorem cover_cons_col (w : S1024x1.Idx → Elt F .f32) (L : List (View.Piece (Elt F) S1024x1 .f32)) (y : S1024x1.Idx) :
    ∃ p ∈ ((⟨rCol, w⟩ : View.Piece (Elt F) S1024x1 .f32) :: L), y ∈ p.1.set :=
  ⟨⟨rCol, w⟩, List.mem_cons_self, mem_unit_zero hz2 inb_S1024x1_S1024x1_0_0 y⟩

/-- The second kernel's first branch is taken where the column-block coordinate is 0 (the running extremes are reset), -/
abbrev condFirst (i : grid1.Coords) : Prop := (Scalar.cmpi .ne (Scalar.extui (Scalar.cmpi .eq (BitVec.ofNat 32 (i 1).val) 0#32)) 0#32) = 1#1
/-- its last where it is 15 (the running extremes are copied to the results' blocks). -/
abbrev condLast (i : grid1.Coords) : Prop := k1_cond2 i = 1#1

theorem hcondFirst : ∀ t : Fin cfg1.N, condFirst (grid1.coords t) ↔ t.val % 16 = 0 :=
  (by decide +kernel : ∀ t : Fin grid1.N, condFirst (grid1.coords t) ↔ t.val % 16 = 0)
theorem hcondLast : ∀ t : Fin cfg1.N, condLast (grid1.coords t) ↔ t.val % 16 = 15 :=
  (by decide +kernel : ∀ t : Fin grid1.N, condLast (grid1.coords t) ↔ t.val % 16 = 15)

end Cert.KernelIdeal.Hand

end
-- ==== Proof.KI.Prep.lean ====
/-
  The first kernel region (one grid axis of 8 row blocks of 1024 rows): at each point it reads a block of each
  of the two f32 operands, stores their elementwise product narrowed to bf16 into the first result's block and the
  row sums of the product's squares into the second result's block. Every point loads and stores through whole
  rectangles, keeps nothing between points, and writes each result block exactly once: what a staging buffer holds
  after the body is one pure function of the two operand blocks.
-/
import proofs.«181903_j28338194219418_1_alg».proof.Proof.KI.Basics
import proofs.«181903_j28338194219418_1_alg».proof.Proof.Gen.KernelIdeal.Launch
import proofs.«181903_j28338194219418_1_alg».proof.Proof.Gen.KernelIdeal.Skeleton
import proofs.«181903_j28338194219418_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's staging buffer holds its block at every point, for any proof data over these arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first result's block after the body: the narrowed product of the two operand blocks. -/
def prodBlk (x0 x1 : Vec F S1024x512 .f32) : Vec F S1024x512 .bf16 :=
  View.canon [⟨rWide, k0_pay2 (View.ld x0 rWide) (View.ld x1 rWide)⟩]
/-- The second result's block after the body: per row, the sum of the squares of the product. -/
def sqBlk (x0 x1 : Vec F S1024x512 .f32) : Vec F S1024x1 .f32 :=
  View.canon [⟨rCol, k0_pay3 (View.ld x0 rWide) (View.ld x1 rWide)⟩]

set_option maxHeartbeats 1000000 in
/-- The body on whole staging buffers: the operands' at contents `x0`, `x1`, the results' at anything; it ends with the
    operands' as they were and the results' at the two functions above. -/
theorem sound_prep (c : Dev nD) (E : Set ℕ) (i : grid0.Coords) (arg1 : Memref sig .tc .vmem S1024x512 .f32) (harg1 : arg1.IsWhole) (arg2 : Memref sig .tc .vmem S1024x512 .f32) (harg2 : arg2.IsWhole)
    (arg3 : Memref sig .tc .vmem S1024x512 .bf16) (harg3 : arg3.IsWhole) (arg4 : Memref sig .tc .vmem S1024x1 .f32) (harg4 : arg4.IsWhole)
    (x0 x1 : Vec F S1024x512 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (prodBlk x0 x1) ∗ owns (c : Thread nD τ) arg4 fullShare (sqBlk x0 x1)) -∗ K ⟨⟩))
      ⊢ wp frame (wpE (defs₀ (F := F)) Variants.none c none) E (cc0__preprocess_kernel i arg1 harg1 arg2 harg2 arg3 harg3 arg4 harg4) K := by
  simp only [cc0__preprocess_kernel_eq_skeleton]; unfold cc0__preprocess_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_wide _)
  iexists _; isplitr
  swap; · iexact H3
  ipureintro
  exact View.read_writes_eq_canon _ _ _ (cover_col _)

/-- The region's proof data on core `c`: the arrays as the region finds them; after the body at point `t` each operand
    buffer at its block and each result buffer at its function of the two operand blocks; nothing kept between points
    beyond the scoped buffers no window stages and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodBlk (iblk0 V c 0 t) (iblk0 V c 1 t)
    | ⟨3, _⟩ => sqBlk (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prodBlk (iblk0 V c 0 t) (iblk0 V c 1 t) := by dsimp only [dat0]
theorem after0_3 (c : Dev nD) (t : Fin cfg0.N) : (dat0 V c).after 3 t = sqBlk (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_prep c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.PairDefs.lean ====
/-
  The proof data of the second kernel region (grid 8 × 16: row blocks of 1024 by column blocks of 512). At a point
  (i, j) the body computes, for the 1024 rows of block i against the 512 columns of block j, each row's greatest
  positive distance and least negative distance, and folds them into two scratch columns that it resets at j = 0 and
  copies to the two results' blocks at j = 15. So what the scratch holds after a point is a recursion over the
  points: the fold of this point's row extremes into what the point before left, or into the reset value where the
  column block is the first.
-/
import proofs.«181903_j28338194219418_1_alg».proof.Proof.KI.Basics

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's staging buffer holds its block at every point, fetched there or not (a window indexed by
    the row block alone is fetched only where the row block changes, and its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The six operand blocks at a point, each at its literal type: the row block and the column block of the narrowed
    products, the row sums of squares as a column and as a row, the labels as a column and as a row. -/
abbrev rowsBlk (c : Dev nD) (t : Fin cfg1.N) : Vec F S1024x512 .bf16 := iblk1 V c 0 t
abbrev colsBlk (c : Dev nD) (t : Fin cfg1.N) : Vec F S512x512 .bf16 := iblk1 V c 1 t
abbrev sqRowBlk (c : Dev nD) (t : Fin cfg1.N) : Vec F S1024x1 .f32 := iblk1 V c 2 t
abbrev sqColBlk (c : Dev nD) (t : Fin cfg1.N) : Vec F S1x512 .f32 := iblk1 V c 3 t
abbrev labRowBlk (c : Dev nD) (t : Fin cfg1.N) : Vec F S1024x1 .i32 := iblk1 V c 4 t
abbrev labColBlk (c : Dev nD) (t : Fin cfg1.N) : Vec F S1x512 .i32 := iblk1 V c 5 t

/-- This point's row maxima over the positives and row minima over the negatives. -/
def curMax (c : Dev nD) (t : Fin cfg1.N) : Vec F S1024x1 .f32 :=
  k1_pay7 (rowsBlk V c t) (colsBlk V c t) (sqRowBlk V c t) (sqColBlk V c t) (labRowBlk V c t) (labColBlk V c t)
def curMin (c : Dev nD) (t : Fin cfg1.N) : Vec F S1024x1 .f32 :=
  k1_pay8 (rowsBlk V c t) (colsBlk V c t) (sqRowBlk V c t) (sqColBlk V c t) (labRowBlk V c t) (labColBlk V c t)

/-- What the first scratch column holds after point `n`: this point's row maxima folded into the reset value where the
    column block is the first (`n` a multiple of 16), else into what the point before left. -/
def runMax (c : Dev nD) : (n : ℕ) → n < cfg1.N → Vec F S1024x1 .f32
  | 0, h => k1_pay1 (curMax V c ⟨0, h⟩) (k1_pay3 (F := F))
  | n + 1, h => if (n + 1) % 16 = 0 then k1_pay1 (curMax V c ⟨n + 1, h⟩) (k1_pay3 (F := F))
      else k1_pay1 (curMax V c ⟨n + 1, h⟩) (runMax c n (Nat.lt_of_succ_lt h))
/-- The same for the second scratch column and the row minima. -/
def runMin (c : Dev nD) : (n : ℕ) → n < cfg1.N → Vec F S1024x1 .f32
  | 0, h => k1_pay2 (curMin V c ⟨0, h⟩) (k1_pay4 (F := F))
  | n + 1, h => if (n + 1) % 16 = 0 then k1_pay2 (curMin V c ⟨n + 1, h⟩) (k1_pay4 (F := F))
      else k1_pay2 (curMin V c ⟨n + 1, h⟩) (runMin c n (Nat.lt_of_succ_lt h))

theorem runMax_first (c : Dev nD) (t : Fin cfg1.N) (h : t.val % 16 = 0) :
    runMax V c t.val t.isLt = k1_pay1 (curMax V c t) (k1_pay3 (F := F)) := by
  obtain ⟨n, hn⟩ := t
  cases n with
  | zero => rfl
  | succ n => exact if_pos h
theorem runMax_next (c : Dev nD) (t : Fin cfg1.N) (h : ¬t.val % 16 = 0) :
    runMax V c t.val t.isLt = k1_pay1 (curMax V c t) (runMax V c (t.val - 1) (Nat.lt_of_le_of_lt (Nat.sub_le _ _) t.isLt)) := by
  obtain ⟨n, hn⟩ := t
  cases n with
  | zero => exact absurd (Nat.zero_mod _) h
  | succ n => exact if_neg h
theorem runMin_first (c : Dev nD) (t : Fin cfg1.N) (h : t.val % 16 = 0) :
    runMin V c t.val t.isLt = k1_pay2 (curMin V c t) (k1_pay4 (F := F)) := by
  obtain ⟨n, hn⟩ := t
  cases n with
  | zero => rfl
  | succ n => exact if_pos h
theorem runMin_next (c : Dev nD) (t : Fin cfg1.N) (h : ¬t.val % 16 = 0) :
    runMin V c t.val t.isLt = k1_pay2 (curMin V c t) (runMin V c (t.val - 1) (Nat.lt_of_le_of_lt (Nat.sub_le _ _) t.isLt)) := by
  obtain ⟨n, hn⟩ := t
  cases n with
  | zero => exact absurd (Nat.zero_mod _) h
  | succ n => exact if_neg h

/-- The two scratch operands, whole scoped buffers of the kernel's own. -/
abbrev scMax : Memref sig .tc .vmem S1024x1 .f32 := Memref.whole cc1_scratch0
abbrev scMin : Memref sig .tc .vmem S1024x1 .f32 := Memref.whole cc1_scratch1

/-- The core's other scoped buffers no window of this region stages (the first region's staging buffers), each at
    some contents. -/
abbrev otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- What the launch hands the region besides the windows: those buffers, the two scratch columns at anything and the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scMax fullShare d) ∗ (∃ d, owns (c : Thread nD τ) scMin fullShare d)) ∗ (∃ r, prngReg c r)) := by
  unfold Pipeline.ΦA; rw [scopedRest1_eq]; simp only [scMax, scMin, owns_whole]; try rfl

/-- The region's invariant before point `n`: before the first point what the launch hands over; afterwards the same
    with the two scratch columns at the running extremes the point before left. -/
def PhiRun (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (runMax V c n hn) ∗ owns (c : Thread nD τ) scMin fullShare (runMin V c n hn)) ∗ (∃ r, prngReg c r))

theorem PhiRun_zero (c : Dev nD) (n : ℕ) (h : n ≤ cfg1.N) (hz : n = 0) : PhiRun V c n h = Pipeline.ΦA spec1 c := by
  subst hz; rfl
theorem PhiRun_succ (c : Dev nD) (n : ℕ) (hn : n < cfg1.N) :
    PhiRun V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (runMax V c n hn) ∗ owns (c : Thread nD τ) scMin fullShare (runMin V c n hn)) ∗ (∃ r, prngReg c r)) := rfl
theorem PhiRun_pos (c : Dev nD) (n : ℕ) (h : n ≤ cfg1.N) (hz : n ≠ 0) :
    PhiRun V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scMax fullShare (runMax V c (n - 1) (by omega)) ∗ owns (c : Thread nD τ) scMin fullShare (runMin V c (n - 1) (by omega))) ∗ (∃ r, prngReg c r)) := by
  cases n with
  | zero => exact absurd rfl hz
  | succ n => rfl

/-- The region's proof data on core `c`: the arrays as the region finds them; after the body at point `t` each
    operand buffer at its block and the two result buffers at the running extremes after `t` (consulted only where
    the column block is the last: elsewhere the body leaves those buffers alone and nothing is written back); the
    invariant above; nothing owed. The array of narrowed products reaches the kernel through two windows (its row
    block and its column block), which share it half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => runMax V c t.val t.isLt
    | ⟨7, _⟩ => runMin V c t.val t.isLt
  Φ t := PhiRun V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem PhiRun_castSucc (c : Dev nD) (t : Fin cfg1.N) :
    (dat1 V c).Φ t.castSucc = PhiRun V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = runMax V c t.val t.isLt := by dsimp only [dat1]
theorem after1_7 (c : Dev nD) (t : Fin cfg1.N) : (dat1 V c).after 7 t = runMin V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

end

end Cert.KernelIdeal.Hand

end
-- ==== Proof.KI.PairBody.lean ====
/-
  The second kernel's body at one grid point, in the three combinations of its two branches the grid meets (the
  column-block coordinate first, in between, last), run on whole staging buffers at named contents. The two scratch
  buffers hold running extremes over the column blocks seen so far: the row maxima of the positives' distances and the
  row minima of the negatives'. Each case ends with every operand buffer as it was and the scratch (and, at the last
  column block, the result buffers) at a pure function of the operand blocks and of what the scratch held.
-/
import proofs.«181903_j28338194219418_1_alg».proof.Proof.KI.Basics

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point whose column block is the first (and not the last): the body resets the two running extremes to −∞ and +∞, folds this block's row maxima and minima into them, and leaves the results' staging buffers as it found them. -/
theorem sound_pair_first (c : Dev nD) (E : Set ℕ) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : condFirst i) (hc1 : ¬condLast i)
    (x0 : Vec F S1024x512 .bf16) (x1 : Vec F S512x512 .bf16) (x2 : Vec F S1024x1 .f32) (x3 : Vec F S1x512 .f32) (x4 : Vec F S1024x1 .i32) (x5 : Vec F S1x512 .i32)
    (xi6 xi7 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xi7 ∗ owns (c : Thread nD τ) arg10 fullShare (k1_pay1 (k1_pay7 x0 x1 x2 x3 x4 x5) (k1_pay3 (F := F))) ∗ owns (c : Thread nD τ) arg11 fullShare (k1_pay2 (k1_pay8 x0 x1 x2 x3 x4 x5) (k1_pay4 (F := F)))) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]
  · iexists _; isplitr
    swap; · iexact H9
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]

set_option maxHeartbeats 1000000 in
/-- At a point whose column block is neither the first nor the last: the body folds this block's row maxima and minima into the running extremes it finds, and leaves the results' staging buffers as it found them. -/
theorem sound_pair_mid (c : Dev nD) (E : Set ℕ) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : ¬condFirst i) (hc1 : ¬condLast i)
    (x0 : Vec F S1024x512 .bf16) (x1 : Vec F S512x512 .bf16) (x2 : Vec F S1024x1 .f32) (x3 : Vec F S1x512 .f32) (x4 : Vec F S1024x1 .i32) (x5 : Vec F S1x512 .i32)
    (xi6 xi7 xs0 xs1 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xi7 ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xi7 ∗ owns (c : Thread nD τ) arg10 fullShare (k1_pay1 (k1_pay7 x0 x1 x2 x3 x4 x5) xs0) ∗ owns (c : Thread nD τ) arg11 fullShare (k1_pay2 (k1_pay8 x0 x1 x2 x3 x4 x5) xs1)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]
  · iexists _; isplitr
    swap; · iexact H9
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]

set_option maxHeartbeats 1000000 in
/-- At a point whose column block is the last (and not the first): the body folds this block's row maxima and minima into the running extremes it finds and copies the two to the results' staging buffers. -/
theorem sound_pair_last (c : Dev nD) (E : Set ℕ) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x1 .i32) (harg6 : arg6.IsWhole) (arg7 : Memref sig .tc .vmem S1x512 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole)
    (hc0 : ¬condFirst i) (hc1 : condLast i)
    (x0 : Vec F S1024x512 .bf16) (x1 : Vec F S512x512 .bf16) (x2 : Vec F S1024x1 .f32) (x3 : Vec F S1x512 .f32) (x4 : Vec F S1024x1 .i32) (x5 : Vec F S1x512 .i32)
    (xs0 xs1 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare (k1_pay1 (k1_pay7 x0 x1 x2 x3 x4 x5) xs0) ∗ owns (c : Thread nD τ) arg9 fullShare (k1_pay2 (k1_pay8 x0 x1 x2 x3 x4 x5) xs1) ∗ owns (c : Thread nD τ) arg10 fullShare (k1_pay1 (k1_pay7 x0 x1 x2 x3 x4 x5) xs0) ∗ owns (c : Thread nD τ) arg11 fullShare (k1_pay2 (k1_pay8 x0 x1 x2 x3 x4 x5) xs1)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf0; subst hf1; subst hf2; subst hf3; subst hf4; subst hf5; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]
  isplitl [H7]
  · iexists _; isplitr
    swap; · iexact H7
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]
  isplitl [H8]
  · iexists _; isplitr
    swap; · iexact H8
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]
  · iexists _; isplitr
    swap; · iexact H9
    ipureintro
    sl_unfold_words
    rw [View.read_writes_eq_canon _ _ _ (cover_cons_col _ _), View.canon_cons_unit_zero hz2]
    simp only [View.readAt_eq_ld, View.ld_unit_zero (S := S1024x512) hz2, View.ld_unit_zero (S := S512x512) hz2, View.ld_unit_zero (S := S1024x1) hz2, View.ld_unit_zero (S := S1x512) hz2, View.readCov_unit_zero (S := S1024x1) _ hz2]

end Cert.KernelIdeal.Hand

end
-- ==== Proof.KI.PairObl.lean ====
/-
  The second kernel region's obligation at every grid point: from the invariant before the point (the scratch columns
  at the running extremes the point before left, or at anything before the first point), the operand buffers at their
  blocks and the result buffers at whatever they hold, the body ends with the invariant after the point, the operand
  buffers unchanged, and the result buffers either untouched (their window idle there: the column block is not the
  last) or at the running extremes (where it is the last, and the pipeline writes them back).
-/
import proofs.«181903_j28338194219418_1_alg».proof.Proof.KI.PairDefs
import proofs.«181903_j28338194219418_1_alg».proof.Proof.KI.PairBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the column block is not the last, result window 6 is idle and is not written back; where it is, the window is live. -/
theorem idleAt1_6 : ∀ t : Fin cfg1.N, ¬condLast (grid1.coords t) → cfg1.idle 6 (grid1.coords t) = true := by decide +kernel
theorem noFlush1_6 : ∀ t : Fin cfg1.N, ¬condLast (grid1.coords t) → (cfg1.win 6).flush t = false := by decide +kernel
theorem liveAt1_6 : ∀ t : Fin cfg1.N, condLast (grid1.coords t) → cfg1.idle 6 (grid1.coords t) = false := by decide +kernel
/-- Where the column block is not the last, result window 7 is idle and is not written back; where it is, the window is live. -/
theorem idleAt1_7 : ∀ t : Fin cfg1.N, ¬condLast (grid1.coords t) → cfg1.idle 7 (grid1.coords t) = true := by decide +kernel
theorem noFlush1_7 : ∀ t : Fin cfg1.N, ¬condLast (grid1.coords t) → (cfg1.win 7).flush t = false := by decide +kernel
theorem liveAt1_7 : ∀ t : Fin cfg1.N, condLast (grid1.coords t) → cfg1.idle 7 (grid1.coords t) = false := by decide +kernel

section
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the position of the column block says which of the three runs applies; the invariant hands
    the run the scratch columns at what the point before left (at anything before the first point) and takes them back
    at this point's running extremes. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiRun V c (t.val + 1) t.isLt from rfl, PhiRun_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 128 := lt_of_lt_of_eq t.isLt (show cfg1.N = 128 from N_1)
  by_cases h0 : t.val % 16 = 0
  · have hnl : ¬condLast (grid1.coords t) := fun h => by have := (hcondLast t).mp h; omega
    rw [Dat.leavesExact_idle (dat1 V c) 6 t (idleAt1_6 t hnl) (noFlush1_6 t hnl), Dat.leavesExact_idle (dat1 V c) 7 t (idleAt1_7 t hnl) (noFlush1_7 t hnl)]
    rw [runMax_first V c t h0, runMin_first V c t h0]
    by_cases hz : t.val = 0
    · rw [PhiRun_castSucc V c t, PhiRun_zero V c _ _ hz, PhiA1_eq]
      iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_pair_first c Set.univ (grid1.coords t) _ _ _ _ _ _ _ _ _ _ _ _ _ _ _ _ _ _ _ _ ((hcondFirst t).mpr h0) hnl (rowsBlk V c t) (colsBlk V c t) (sqRowBlk V c t) (sqColBlk V c t) (labRowBlk V c t) (labColBlk V c t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [R0 R1 R2 R3 R4 R5 R6 R7 HS0 HS1 Hg]
      · isplitl [R0 R1 R2 R3 R4 R5 R6 R7 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiRun_castSucc V c t, PhiRun_pos V c _ _ hz]
      iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_pair_first c Set.univ (grid1.coords t) _ _ _ _ _ _ _ _ _ _ _ _ _ _ _ _ _ _ _ _ ((hcondFirst t).mpr h0) hnl (rowsBlk V c t) (colsBlk V c t) (sqRowBlk V c t) (sqColBlk V c t) (labRowBlk V c t) (labColBlk V c t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [R0 R1 R2 R3 R4 R5 R6 R7 HS0 HS1 Hg]
      · isplitl [R0 R1 R2 R3 R4 R5 R6 R7 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun h => h0 (by rw [h])
    have hnf : ¬condFirst (grid1.coords t) := fun h => h0 ((hcondFirst t).mp h)
    by_cases h2 : t.val % 16 = 15
    · have hl : condLast (grid1.coords t) := (hcondLast t).mpr h2
      rw [show (dat1 V c).leavesExact 6 t = owns (c : Thread nD τ) (st1_6 t) fullShare ((dat1 V c).after 6 t) from by
        unfold Dat.leavesExact; rw [liveAt1_6 t hl], after1_6]
      rw [show (dat1 V c).leavesExact 7 t = owns (c : Thread nD τ) (st1_7 t) fullShare ((dat1 V c).after 7 t) from by
        unfold Dat.leavesExact; rw [liveAt1_7 t hl], after1_7]
      rw [runMax_next V c t h0, runMin_next V c t h0]
      rw [PhiRun_castSucc V c t, PhiRun_pos V c _ _ hz]
      iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_pair_last c Set.univ (grid1.coords t) _ _ _ _ _ _ _ _ _ _ _ _ _ _ _ _ _ _ _ _ hnf hl (rowsBlk V c t) (colsBlk V c t) (sqRowBlk V c t) (sqColBlk V c t) (labRowBlk V c t) (labColBlk V c t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [R0 R1 R2 R3 R4 R5 R6 R7 HS0 HS1 Hg]
      · isplitl [R0 R1 R2 R3 R4 R5 R6 R7 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hnl : ¬condLast (grid1.coords t) := fun h => h2 ((hcondLast t).mp h)
      rw [Dat.leavesExact_idle (dat1 V c) 6 t (idleAt1_6 t hnl) (noFlush1_6 t hnl), Dat.leavesExact_idle (dat1 V c) 7 t (idleAt1_7 t hnl) (noFlush1_7 t hnl)]
      rw [runMax_next V c t h0, runMin_next V c t h0]
      rw [PhiRun_castSucc V c t, PhiRun_pos V c _ _ hz]
      iintro ⟨⟨⟨R0, R1, R2, R3, R4, R5, R6, R7, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_pair_mid c Set.univ (grid1.coords t) _ _ _ _ _ _ _ _ _ _ _ _ _ _ _ _ _ _ _ _ hnf hnl (rowsBlk V c t) (colsBlk V c t) (sqRowBlk V c t) (sqColBlk V c t) (labRowBlk V c t) (labColBlk V c t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [R0 R1 R2 R3 R4 R5 R6 R7 HS0 HS1 Hg]
      · isplitl [R0 R1 R2 R3 R4 R5 R6 R7 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiRun V c 0 (Nat.zero_le _) from rfl, PhiRun_zero V c 0 _ rfl]
  try exact Idealize.SL.BI.Entails.refl _

/-- After the last point the invariant gives the same back, the scratch columns' contents forgotten. -/
theorem hout1 (c : Dev nD) : (dat1 V c).Φ (Fin.last cfg1.N) ⊢ Pipeline.ΦA spec1 c := by
  rw [show (dat1 V c).Φ (Fin.last cfg1.N) = PhiRun V c (Fin.last cfg1.N).val (Nat.le_of_lt_succ (Fin.last cfg1.N).isLt) from rfl,
    PhiRun_pos V c _ _ (by rw [Fin.val_last]; have : cfg1.N = 128 := N_1; omega), PhiA1_eq]
  iintro ⟨⟨R0, R1, R2, R3, R4, R5, R6, R7, HS0, HS1⟩, Hg⟩
  isplitl [R0 R1 R2 R3 R4 R5 R6 R7 HS0 HS1]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [HS0]; · iexists _; iexact HS0
    iexists _; iexact HS1
  iexact Hg

end

end Cert.KernelIdeal.Hand

end
-- ==== Proof.KI.RunFold.lean ====
/-
  The contents of the core's buffers at each boundary of @main — the launch; after the first kernel region (its two
  results' arrays at what its write-backs leave); after the three reshapes between the regions; after the second region
  (its two results' arrays likewise); after each of the three closing stretches of host operations — as a fold from
  the launch memory, the proof data of both regions at their entry contents, and the first region as a segment of
  @main: entered from every unscoped buffer at the launch contents, left with them at the next boundary's.
-/
import proofs.«181903_j28338194219418_1_alg».proof.Proof.KI.Prep
import proofs.«181903_j28338194219418_1_alg».proof.Proof.KI.PairObl

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the reshapes between the regions (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit: its two results' arrays at what the pipeline leaves, every other buffer as entered
    (two of its operand windows are on one array, so the contents are written out reference by reference). -/
def W3 (c : Dev nD) : Valuation τ sig (Elt F) :=
  Function.update (Function.update (W2 m ρ c) (Proc.devRef .tc main_v4_0) ((dat1 (V2 m ρ) c).arrAt 6 cfg1.N))
    (Proc.devRef .tc main_v4_1) ((dat1 (V2 m ρ) c).arrAt 7 cfg1.N)
theorem W3_v4_0 (c : Dev nD) : W3 m ρ c (Proc.devRef .tc main_v4_0) = (dat1 (V2 m ρ) c).arrAt 6 cfg1.N := by
  unfold W3
  rw [Function.update_of_ne (StableHlo.devRef_ne_of_ne (by decide) : (Proc.devRef .tc main_v4_0 : DevRef τ sig) ≠ Proc.devRef .tc main_v4_1),
    Function.update_self]
theorem W3_v4_1 (c : Dev nD) : W3 m ρ c (Proc.devRef .tc main_v4_1) = (dat1 (V2 m ρ) c).arrAt 7 cfg1.N := by
  unfold W3; rw [Function.update_self]
theorem W3_of_ne (c : Dev nD) (b : Ref sig .tc) (h0 : b ≠ main_v4_0) (h1 : b ≠ main_v4_1) :
    W3 m ρ c (Proc.devRef .tc b) = W2 m ρ c (Proc.devRef .tc b) := by
  unfold W3
  rw [Function.update_of_ne (StableHlo.devRef_ne_of_ne h1 : (Proc.devRef .tc b : DevRef τ sig) ≠ Proc.devRef .tc main_v4_1),
    Function.update_of_ne (StableHlo.devRef_ne_of_ne h0 : (Proc.devRef .tc b : DevRef τ sig) ≠ Proc.devRef .tc main_v4_0)]
abbrev V3 : (c : Dev nD) → (b : Ref sig .tc) → Buf (Elt F) ((c : Thread nD τ).loc b) := fun c b => W3 m ρ c b
/-- After each of the three closing stretches. -/
abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)

/-! ## The proof data family and what rides beside the buffers -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

set_option backward.isDefEq.respectTransparency.types false in
/-- The first region: entered from every unscoped buffer at the launch contents, left with them at the next boundary's.
    Its arrays are split out of the unscoped buffers and put back at the exit contents; the generator register goes into
    the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunPair.lean ====
/-
  The second kernel region as a segment of @main: entered from every unscoped buffer at the contents the reshapes
  left, left with them at the next boundary's (its two results' arrays replaced by what the write-backs leave). The
  array of narrowed products reaches the kernel through two operand windows; on entry its buffer's full share is
  dealt to them half and half, and on exit — both windows' final contents being the array as entered — the halves are
  put back together.
-/
import proofs.«181903_j28338194219418_1_alg».proof.Proof.KI.RunFold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Arrays
variable (V : (c : Dev nD) → (b : Ref sig .tc) → Buf (Elt F) ((c : Thread nD τ).loc b))

/-- The buffers behind the second region's windows' arrays, one by one (seven buffers for eight windows). -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0_0) ↦{fullShare} V' main_v0_0)
      ∗ (((c : Thread nD τ).loc main_v0_1) ↦{fullShare} V' main_v0_1)
      ∗ (((c : Thread nD τ).loc main_v3) ↦{fullShare} V' main_v3)
      ∗ (((c : Thread nD τ).loc main_v1) ↦{fullShare} V' main_v1)
      ∗ (((c : Thread nD τ).loc main_v2) ↦{fullShare} V' main_v2)
      ∗ (((c : Thread nD τ).loc main_v4_0) ↦{fullShare} V' main_v4_0)
      ∗ (((c : Thread nD τ).loc main_v4_1) ↦{fullShare} V' main_v4_1)) := by
  unfold Pipeline.arrBufs
  rw [bigSep_eq_bigSepL_of_eq [main_v0_0, main_v0_1, main_v3, main_v1, main_v2, main_v4_0, main_v4_1] (by decide) (by decide)]
  rfl

/-- The share each window's array is held at: the two windows on the products' array a half each, the others all. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl

/-- A window's array is a whole buffer, held over its whole index set at the window's share. -/
theorem arr_term1 (c : Dev nD) (w : Fin cfg1.W) (q : PosShare TreeShare) (hq : (dat1 V c).share w = q) (G : Buf (Elt F) ((cfg1.win w).arr.view.loc (c : Thread nD τ))) :
    ((cfg1.win w).arr.view.loc (c : Thread nD τ) ↦[(cfg1.win w).arr.view.set]{(dat1 V c).share w} G : sProp 𝕄)
      = ((cfg1.win w).arr.view.loc (c : Thread nD τ) ↦{q} G) := by
  rw [hq, (arr_whole1 w).set_eq_univ]

/-- The region's arrays as the pipeline holds them, window by window: the two windows on the products' array at
    half the full share each, every other window's array at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0_0) ↦{fullShare.left} (G 0))
      ∗ (((c : Thread nD τ).loc main_v0_0) ↦{fullShare.right} (G 1))
      ∗ (((c : Thread nD τ).loc main_v0_1) ↦{fullShare} (G 2))
      ∗ (((c : Thread nD τ).loc main_v3) ↦{fullShare} (G 3))
      ∗ (((c : Thread nD τ).loc main_v1) ↦{fullShare} (G 4))
      ∗ (((c : Thread nD τ).loc main_v2) ↦{fullShare} (G 5))
      ∗ (((c : Thread nD τ).loc main_v4_0) ↦{fullShare} (G 6))
      ∗ (((c : Thread nD τ).loc main_v4_1) ↦{fullShare} (G 7))) := by
  unfold Dat.arrays
  rw [bigSep_W1]
  exact congrArg₂ _ (arr_term1 V c 0 _ (share1_0 V c) _) (congrArg₂ _ (arr_term1 V c 1 _ (share1_1 V c) _) (congrArg₂ _ (arr_term1 V c 2 _ (share1_2 V c) _)
    (congrArg₂ _ (arr_term1 V c 3 _ (share1_3 V c) _) (congrArg₂ _ (arr_term1 V c 4 _ (share1_4 V c) _) (congrArg₂ _ (arr_term1 V c 5 _ (share1_5 V c) _)
    (congrArg₂ _ (arr_term1 V c 6 _ (share1_6 V c) _) (arr_term1 V c 7 _ (share1_7 V c) _)))))))

/-- ENTRY: the seven buffers at contents `V'` are the eight windows' arrays at the same contents, -/
theorem arrays1_of_bufs (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (Pipeline.arrBufs (Ix := Unit) (Name := ℕ) (U := UR sig nD τ) (Lvl := ℕ) spec1 c V' : sProp 𝕄) ⊢ (dat1 V c).arrays G := by
  rw [arrBufs1_eq, arrays1_eq, hG 0, hG 1, hG 2, hG 3, hG 4, hG 5, hG 6, hG 7]
  iintro ⟨H00, H01, H3, H1, H2, H40, H41⟩
  ihave Hs := (pointsTo_share (PosShare.mem_left_op_right fullShare)).1 $$ H00
  icases Hs with ⟨Hl, Hr⟩
  isplitl [Hl]; · iexact Hl
  isplitl [Hr]; · iexact Hr
  isplitl [H01]; · iexact H01
  isplitl [H3]; · iexact H3
  isplitl [H1]; · iexact H1
  isplitl [H2]; · iexact H2
  isplitl [H40]; · iexact H40
  iexact H41

/-- EXIT: and back. -/
theorem bufs_of_arrays1 (c : Dev nD) (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    ((dat1 V c).arrays G : sProp 𝕄) ⊢ Pipeline.arrBufs (Ix := Unit) (Name := ℕ) (U := UR sig nD τ) (Lvl := ℕ) spec1 c V' := by
  rw [arrBufs1_eq, arrays1_eq, hG 0, hG 1, hG 2, hG 3, hG 4, hG 5, hG 6, hG 7]
  iintro ⟨Hl, Hr, H01, H3, H1, H2, H40, H41⟩
  isplitl [Hl Hr]
  · iapply (pointsTo_share (PosShare.mem_left_op_right fullShare)).2
    isplitl [Hl]; · iexact Hl
    iexact Hr
  isplitl [H01]; · iexact H01
  isplitl [H3]; · iexact H3
  isplitl [H1]; · iexact H1
  isplitl [H2]; · iexact H2
  isplitl [H40]; · iexact H40
  iexact H41

end Arrays

/-- The unscoped buffers that are no array of the second region do not change across it. -/
theorem rest1_congr (c : Dev nD) :
    (Pipeline.unscopedRest (Ix := Unit) (Name := ℕ) (U := UR sig nD τ) (Lvl := ℕ) spec1 c (V2 m ρ c) : sProp 𝕄)
      = Pipeline.unscopedRest (Ix := Unit) (Name := ℕ) (U := UR sig nD τ) (Lvl := ℕ) spec1 c (V3 m ρ c) := by
  unfold Pipeline.unscopedRest
  refine bigSep_congr fun b hb => ?_
  have hb' := (Finset.mem_sdiff.mp hb).2
  have h0 : b ≠ main_v4_0 := fun e => hb' (Finset.mem_image.mpr ⟨6, Finset.mem_univ _, e.symm⟩)
  have h1 : b ≠ main_v4_1 := fun e => hb' (Finset.mem_image.mpr ⟨7, Finset.mem_univ _, e.symm⟩)
  rw [show V3 m ρ c b = V2 m ρ c b from W3_of_ne m ρ c b h0 h1]

/-- At the region's exit each window's array holds the next boundary's contents: an operand's array what it held
    (nothing is written back to it), a result's array what the write-backs leave. -/
theorem hG1 (c : Dev nD) (w : Fin cfg1.W) : (dat1 (V2 m ρ) c).arrAt w cfg1.N = V3 m ρ c (Pipeline.arrRef spec1 w) := by
  match w with
  | ⟨0, _⟩ => exact ((dat1 (V2 m ρ) c).arrAt_in 0 rfl _).trans ((A_eq1 (V2 m ρ) c 0).trans (W3_of_ne m ρ c _ (by decide) (by decide)).symm)
  | ⟨1, _⟩ => exact ((dat1 (V2 m ρ) c).arrAt_in 1 rfl _).trans ((A_eq1 (V2 m ρ) c 1).trans (W3_of_ne m ρ c _ (by decide) (by decide)).symm)
  | ⟨2, _⟩ => exact ((dat1 (V2 m ρ) c).arrAt_in 2 rfl _).trans ((A_eq1 (V2 m ρ) c 2).trans (W3_of_ne m ρ c _ (by decide) (by decide)).symm)
  | ⟨3, _⟩ => exact ((dat1 (V2 m ρ) c).arrAt_in 3 rfl _).trans ((A_eq1 (V2 m ρ) c 3).trans (W3_of_ne m ρ c _ (by decide) (by decide)).symm)
  | ⟨4, _⟩ => exact ((dat1 (V2 m ρ) c).arrAt_in 4 rfl _).trans ((A_eq1 (V2 m ρ) c 4).trans (W3_of_ne m ρ c _ (by decide) (by decide)).symm)
  | ⟨5, _⟩ => exact ((dat1 (V2 m ρ) c).arrAt_in 5 rfl _).trans ((A_eq1 (V2 m ρ) c 5).trans (W3_of_ne m ρ c _ (by decide) (by decide)).symm)
  | ⟨6, _⟩ => exact (W3_v4_0 m ρ c).symm
  | ⟨7, _⟩ => exact (W3_v4_1 m ρ c).symm

/-- What the region's entry hands the invariant, and what the invariant gives back at the exit, in the shape the
    segment record asks for (no table is prefetched; the kernel has no semaphore of its own). -/
theorem hin1' (V : (c : Dev nD) → (b : Ref sig .tc) → Buf (Elt F) ((c : Thread nD τ).loc b)) (c : Dev nD) :
    iprop((∃ r, prngReg c r) ∗ Pipeline.prefHeld (Ix := Unit) (Name := ℕ) (U := UR sig nD τ) (Lvl := ℕ) (pcfgs (F := F) 1).pre c (fun _ => fullShare) (adm (F := F) 1).1 ∗ Pipeline.scopedRest (Ix := Unit) (Name := ℕ) (U := UR sig nD τ) (Lvl := ℕ) spec1 c)
      ⊢ ((dat1 V c).Φ 0 : sProp 𝕄) := by
  refine BIBase.Entails.trans ?_ (hin1 V c)
  unfold Pipeline.ΦA
  iintro ⟨Hp, -, Hr⟩
  isplitl [Hr]; · iexact Hr
  iexact Hp
theorem hout1' (V : (c : Dev nD) → (b : Ref sig .tc) → Buf (Elt F) ((c : Thread nD τ).loc b)) (c : Dev nD) :
    ((dat1 V c).Φ (Fin.last cfg1.N) : sProp 𝕄)
      ⊢ iprop((∃ r, prngReg c r) ∗ Pipeline.ownSems0 (Ix := Unit) (Name := ℕ) (U := UR sig nD τ) (Lvl := ℕ) (Val := Elt F) (fun k : PEmpty => k.elim) c ∗ Pipeline.scopedRest (Ix := Unit) (Name := ℕ) (U := UR sig nD τ) (Lvl := ℕ) spec1 c) := by
  rw [Pipeline.ownSems0_none]
  refine BIBase.Entails.trans (hout1 V c) ?_
  unfold Pipeline.ΦA
  iintro ⟨Hr, Hp⟩
  isplitl [Hp]; · iexact Hp
  isplitr; · iempintro
  iexact Hr

set_option maxHeartbeats 1000000 in
set_option backward.isDefEq.respectTransparency.types false in
/-- The second region: entered from every unscoped buffer at the contents after the reshapes, left with them at the next
    boundary's. The generator register goes into the region's invariant and comes out; nothing is owed; the kernel has
    no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs (Ix := Unit) (Name := ℕ) (U := UR sig nD τ) (Lvl := ℕ) c (V2 m ρ c) : sProp 𝕄)
        ⊢ iprop((pdats m ρ 1 c).arrays ((pdats m ρ 1 c).arrAt · 0) ∗ Pipeline.unscopedRest spec1 c (V2 m ρ c)) := by
      rw [Pipeline.unscopedBufs_split₀ (Pipeline.pin (pcfgs (F := F)) adm) 1 winFacts₀1.arr_unscoped c (V2 m ρ c)]
      exact sep_mono (arrays1_of_bufs (V2 m ρ) c (V2 m ρ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1' (V2 m ρ) c
  hout c := hout1' (V2 m ρ) c
  hexit c := by
    have hjoin : iprop((pdats m ρ 1 c).arrays ((pdats m ρ 1 c).arrAt · cfg1.N) ∗ Pipeline.unscopedRest spec1 c (V2 m ρ c))
        ⊢ (unscopedBufs (Ix := Unit) (Name := ℕ) (U := UR sig nD τ) (Lvl := ℕ) c (V3 m ρ c) : sProp 𝕄) := by
      rw [Pipeline.unscopedBufs_split₀ (Pipeline.pin (pcfgs (F := F)) adm) 1 winFacts₀1.arr_unscoped c (V3 m ρ c), rest1_congr m ρ c]
      exact sep_mono (bufs_of_arrays1 (V2 m ρ) c (V3 m ρ c) _ (hG1 m ρ c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  @main from the launch to the return: the two kernel regions and the four stretches of host operations as segments,
  each entered from what the one before it left; every weakly fair execution terminates, nothing faults, and the final
  memory holds every unscoped buffer at the last boundary's contents. Read at the three argument arrays — no host
  operation writes one, the first region only reads the two float operands through its windows, no region touches the
  labels — this is the frame; read at the result it is what the value claim starts from.
-/
import proofs.«181903_j28338194219418_1_alg».proof.Proof.KI.RunPair
import proofs.«181903_j28338194219418_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's six segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)) ]
/-- @main is the run of the segments. -/
theorem main_run (c : Dev nD) : main (F := F) c = Pipeline.Seg.run (segs m ρ) := (main_chain c).trans (by chain_rfl)

/-- The last thread state without the `owes`: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- THE RUN: from any memory with zero counters every weakly fair execution of @main on the TensorCore terminates,
    nothing faulting, and every final state holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_writes_sub hostOps2_2 _ hostOps2_2_writes (r := main_arg0) (by decide)
    _ = W4 m ρ c (Proc.devRef .tc main_arg0) := StableHlo.after_of_writes_sub hostOps2_1 _ hostOps2_1_writes (r := main_arg0) (by decide)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide) (by decide)
    _ = W1 m ρ c (Proc.devRef .tc main_arg0) := StableHlo.after_of_writes_sub hostOps1 _ hostOps1_writes (r := main_arg0) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_writes_sub hostOps2_2 _ hostOps2_2_writes (r := main_arg1) (by decide)
    _ = W4 m ρ c (Proc.devRef .tc main_arg1) := StableHlo.after_of_writes_sub hostOps2_1 _ hostOps2_1_writes (r := main_arg1) (by decide)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide) (by decide)
    _ = W1 m ρ c (Proc.devRef .tc main_arg1) := StableHlo.after_of_writes_sub hostOps1 _ hostOps1_writes (r := main_arg1) (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_writes_sub hostOps2_2 _ hostOps2_2_writes (r := main_arg2) (by decide)
    _ = W4 m ρ c (Proc.devRef .tc main_arg2) := StableHlo.after_of_writes_sub hostOps2_1 _ hostOps2_1_writes (r := main_arg2) (by decide)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide) (by decide)
    _ = W1 m ρ c (Proc.devRef .tc main_arg2) := StableHlo.after_of_writes_sub hostOps1 _ hostOps1_writes (r := main_arg2) (by decide)
    _ = W0 m ρ c (Proc.devRef .tc main_arg2) := W1_of_ne m ρ c main_arg2 (by decide)
    _ = m ((c : Thread nD τ).loc main_arg2) := rfl

/-- THE FRAME: every weakly fair execution terminates, nothing faulting, with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run m ρ)

end Cert.KernelIdeal.Hand

end
-- ==== Proof.KI.Result.lean ====
/-
  @main's closing host operations as one function of the second region's two result columns — each reshaped to a
  vector, their difference plus the margin, clamped below at zero, summed and divided by the number of rows — and the
  program's result buffer at the end of the run as that function of what the second region left.
-/
import proofs.«181903_j28338194219418_1_alg».proof.Proof.KI.Run
import Idealize.ShloMosaic.Lib.StableHlo.Run
import Idealize.ShloMosaic.PureOps.Ideal
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

section
variable (m : (ℓ : Loc nD τ sig) → Buf (Elt Ideal) ℓ) (ρ : Dev nD → PrngReg)

/-- The mean of the margin-clamped differences of two columns. -/
def tailK (ap an : FVec Ideal S8192x1 .f32) : FVec Ideal S_ .f32 :=
  Host.divf (F := Ideal)
    (Host.reduceAdd (F := Ideal)
      (maximumf
        (addf (subf (shapeCast S8192 ap shapeCasts_S8192x1_S8192) (shapeCast S8192 an shapeCasts_S8192x1_S8192))
          (broadcastInDim S8192 ![] bcast_S_S8192 (constant (F := Ideal) S_ .f32 0x3F000000#32)))
        (broadcastInDim S8192 ![] bcast_S_S8192 (constant (F := Ideal) S_ .f32 0x00000000#32)))
      (constant (F := Ideal) S_ .f32 0x00000000#32) reducesTo_S8192_S_d0 h_S_)
    (constant (F := Ideal) S_ .f32 0x46000000#32)

/-- The second region's two result columns at its exit, at their literal type. -/
abbrev apCol (c : Dev nD) : FVec Ideal S8192x1 .f32 := (dat1 (V2 m ρ) c).arrAt 6 cfg1.N
abbrev anCol (c : Dev nD) : FVec Ideal S8192x1 .f32 := (dat1 (V2 m ρ) c).arrAt 7 cfg1.N

set_option maxHeartbeats 1000000 in
/-- At the end of the run the result buffer holds that function of the two columns. -/
theorem W6_result (c : Dev nD) :
    (W6 m ρ c (Proc.devRef .tc main_v12) : S_.Idx → EReal) = tailK (apCol m ρ c) (anCol m ρ c) := by
  show StableHlo.after hostOps2_2 (StableHlo.after hostOps2_1 (StableHlo.after hostOps2 (W3 m ρ c))) (Proc.devRef .tc main_v12) = _
  rw [← StableHlo.after_append, ← StableHlo.after_append]
  simp only [hostOps2, hostOps2_1, hostOps2_2, List.cons_append, List.nil_append]
  after_results
  simp only [StableHlo.TRef.ofBuf, StableHlo.TRef.toBuf, cast_eq]
  rw [W3_v4_0, W3_v4_1]
  rfl

end

end Cert.KernelIdeal.Hand

end
-- ==== Proof.Spec.lean ====
/-
  The mathematics both programs compute, over the extended reals, index by index. From the elementwise products
  x r k of the two float operands: each row's sum of squares, each pair of rows' inner product, the pair's distance
  (the square root of the squared distance, clamped below by a small constant), and per row the greatest distance to a
  row with the same label and the least distance to a row with another label (−∞ / +∞ where there is none).
-/
import Idealize.ShloMosaic.PureOps.Ideal
import Idealize.ShloMosaic.Lib.ValueIdx

noncomputable section

namespace Cert.Spec

open Idealize.ShloMosaic

/-- The four float constants of the two programs, as the extended reals their patterns denote: the clamp, the factor
    two, and the two infinities. -/
def eps : EReal := Ideal.ofBits .f32 0x2B8CBCCC#32
def two : EReal := Ideal.ofBits .f32 0x40000000#32
def negInf : EReal := Ideal.ofBits .f32 0xFF800000#32
def posInf : EReal := Ideal.ofBits .f32 0x7F800000#32

variable (x : Fin 8192 → Fin 512 → EReal) (lab : Fin 8192 → BitVec 32)

/-- A row's sum of squares, and two rows' inner product. -/
def sqv (r : Fin 8192) : EReal := ∑ k : Fin 512, x r k * x r k
def gram (r s : Fin 8192) : EReal := ∑ k : Fin 512, x r k * x s k
/-- Two rows' distance. -/
def dist (r s : Fin 8192) : EReal := Ideal.sqrt (max eps ((sqv x r + sqv x s) - two * gram x r s))
/-- What row `s` contributes to row `r`'s greatest positive distance, and to its least negative distance. -/
def posTerm (r s : Fin 8192) : EReal := if lab r = lab s then dist x r s else negInf
def negTerm (r s : Fin 8192) : EReal := if lab r = lab s then posInf else dist x r s
/-- A row's hardest positive and hardest negative. -/
def hardPos (r : Fin 8192) : EReal := (Finset.univ : Finset (Fin 8192)).fold max negInf (posTerm x lab r)
def hardNeg (r : Fin 8192) : EReal := (Finset.univ : Finset (Fin 8192)).fold min posInf (negTerm x lab r)

end Cert.Spec

end
-- ==== Proof.KI.PrepValue.lean ====
/-
  What the first kernel region leaves in its two results' arrays, read at the extended reals index by index: the
  array of products holds x r k, the product of the two operands' entries (narrowing to bf16 is the identity there),
  and the column of row sums holds each row's sum of the squares of its products. Each row block is written by exactly
  one grid point, as a pure function of the operands' blocks there.
-/
import proofs.«181903_j28338194219418_1_alg».proof.Proof.KI.Prep
import proofs.«181903_j28338194219418_1_alg».proof.Proof.Spec
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

/-- The first result's block at an index: the product of the operand blocks' entries (narrowing is the identity). -/
theorem prodBlk_apply (x0 x1 : Vec Ideal S1024x512 .f32) (y : S1024x512.Idx) :
    (prodBlk x0 x1 : S1024x512.Idx → EReal) y = x0 y * x1 y := by
  unfold prodBlk
  rw [View.canon_unit_zero hz2]
  simp only [View.ld_unit_zero (S := S1024x512) hz2]
  rfl

/-- A column made from a vector by adding a trailing unit axis reads the vector's entry. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum along the second axis of a 1024 × 512 block, at row p: the sum over the row's entries. -/
theorem rowSum_apply (src : FVec Ideal S1024x512 .f32) (h : S1024x512.Reduces [1] S1024) (hφ : FKind.Formats .f32)
    (hacc : (0x00000000#32 : BitVec 32) = 0x00000000#32) (p : Fin 1024) :
    multiReduction .add [1] S1024 src 0x00000000#32 h hφ hacc (ix1 p) = ∑ k : Fin 512, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The second result's block at row p: the sum along the row of the squares of the operand blocks' products. -/
theorem sqBlk_apply (x0 x1 : Vec Ideal S1024x512 .f32) (p : Fin 1024) (q : Fin 1) :
    (sqBlk x0 x1 : S1024x1.Idx → EReal) (ix2 p q)
      = ∑ k : Fin 512, (x0 (ix2 p k) * x1 (ix2 p k)) * (x0 (ix2 p k) * x1 (ix2 p k)) := by
  unfold sqBlk
  rw [View.canon_unit_zero hz2]
  simp only [View.ld_unit_zero (S := S1024x512) hz2]
  unfold k0_pay3
  refine (shapeCast_a_a1_apply _ _ p q).trans ?_
  refine (rowSum_apply _ _ _ _ p).trans ?_
  rfl

section
variable (V : (c : Dev nD) → (b : Ref sig .tc) → Buf (Elt Ideal) ((c : Thread nD τ).loc b))

/-- The elementwise product of the two operand arrays as the first region finds them. -/
abbrev opArr0 (c : Dev nD) : S8192x512.Idx → EReal := V c main_arg0
abbrev opArr1 (c : Dev nD) : S8192x512.Idx → EReal := V c main_arg1
def xOf (c : Dev nD) (r : Fin 8192) (k : Fin 512) : EReal := opArr0 V c (ix2 r k) * opArr1 V c (ix2 r k)

/-- All four windows of the first region move with the grid point: block row t, block column 0. -/
theorem rowBlock_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An operand's block at point t, at an index, is the operand's entry 1024 t rows further down. -/
theorem iblk0_0_apply (c : Dev nD) (t : Fin cfg0.N) (y : S1024x512.Idx) (i : S8192x512.Idx)
    (h0 : (i 0).val = t.val * 1024 + (y 0).val) (h1 : (i 1).val = (y 1).val) :
    (iblk0 V c 0 t : Vec Ideal S1024x512 .f32) y = opArr0 V c i := by
  obtain ⟨e0, e1, -⟩ := rowBlock_facts t
  unfold iblk0
  rw [View.read_apply]
  show V c main_arg0 _ = V c main_arg0 _
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 512 + 1 * (y 1).val = (i 1).val; rw [e1, h1]; omega

theorem iblk0_1_apply (c : Dev nD) (t : Fin cfg0.N) (y : S1024x512.Idx) (i : S8192x512.Idx)
    (h0 : (i 0).val = t.val * 1024 + (y 0).val) (h1 : (i 1).val = (y 1).val) :
    (iblk0 V c 1 t : Vec Ideal S1024x512 .f32) y = opArr1 V c i := by
  obtain ⟨-, -, e0, e1, -⟩ := rowBlock_facts t
  unfold iblk0
  rw [View.read_apply]
  show V c main_arg1 _ = V c main_arg1 _
  congr 1
  funext a
  apply Fin.ext
  match a with
  | ⟨0, _⟩ => show win0_1.index t (0 : Fin 2) * 1024 + 1 * (y 0).val = (i 0).val; rw [e0, h0]; omega
  | ⟨1, _⟩ => show win0_1.index t (1 : Fin 2) * 512 + 1 * (y 1).val = (i 1).val; rw [e1, h1]; omega

/-- What the first result's array ends holding, as one function of the operand arrays: their elementwise product. -/
def prodArr (c : Dev nD) : S8192x512.Idx → EReal := fun i => opArr0 V c i * opArr1 V c i
/-- What the second result's array ends holding: at row r the sum of the squares of the products along the row. -/
def sqArr (c : Dev nD) : S8192x1.Idx → EReal := fun i => Cert.Spec.sqv (xOf V c) ⟨(i 0).val, idx2_lt0 i⟩

/-- What point t writes back through the first result's window is block t of the products' array. -/
theorem flushed_prod (c : Dev nD) (t : Fin cfg0.N) :
    (dat0 V c).flushed 2 t = ((cfg0.win 2).blk t).view.read (Elt Ideal) (prodArr V c) := by
  show (cfg0.win 2).cut (grid0.coords t) ((dat0 V c).after 2 t) = _
  rw [after0_2]
  obtain ⟨-, -, -, -, e0, e1, -⟩ := rowBlock_facts t
  funext j
  show (prodBlk (iblk0 V c 0 t) (iblk0 V c 1 t) : S1024x512.Idx → EReal) j = prodArr V c (((cfg0.win 2).blk t).view.emb j)
  refine (prodBlk_apply (iblk0 V c 0 t) (iblk0 V c 1 t) j).trans ?_
  have h0 : ((((cfg0.win 2).blk t).view.emb j : S8192x512.Idx) 0).val = t.val * 1024 + (j 0).val := by
    show win0_2.index t (0 : Fin 2) * 1024 + 1 * (j 0).val = _; rw [e0]; omega
  have h1 : ((((cfg0.win 2).blk t).view.emb j : S8192x512.Idx) 1).val = (j 1).val := by
    show win0_2.index t (1 : Fin 2) * 512 + 1 * (j 1).val = _; rw [e1]; omega
  rw [iblk0_0_apply V c t j _ h0 h1, iblk0_1_apply V c t j _ h0 h1]
  rfl

/-- What point t writes back through the second result's window is block t of the row sums' array. -/
theorem flushed_sq (c : Dev nD) (t : Fin cfg0.N) :
    (dat0 V c).flushed 3 t = ((cfg0.win 3).blk t).view.read (Elt Ideal) (sqArr V c) := by
  show (cfg0.win 3).cut (grid0.coords t) ((dat0 V c).after 3 t) = _
  rw [after0_3]
  obtain ⟨-, -, -, -, -, -, e0, e1⟩ := rowBlock_facts t
  funext j
  obtain ⟨p, q, rfl⟩ : ∃ (p : Fin 1024) (q : Fin 1), j = ix2 p q := ⟨j 0, j 1, eq_ix2 j⟩
  show (sqBlk (iblk0 V c 0 t) (iblk0 V c 1 t) : S1024x1.Idx → EReal) (ix2 p q) = sqArr V c (((cfg0.win 3).blk t).view.emb (ix2 p q))
  refine (sqBlk_apply (iblk0 V c 0 t) (iblk0 V c 1 t) p q).trans ?_
  have h0 : ((((cfg0.win 3).blk t).view.emb (ix2 p q) : S8192x1.Idx) 0).val = t.val * 1024 + p.val := by
    show win0_3.index t (0 : Fin 2) * 1024 + 1 * p.val = _; rw [e0]; omega
  unfold sqArr Cert.Spec.sqv xOf
  generalize hr : (⟨((((cfg0.win 3).blk t).view.emb (ix2 p q) : S8192x1.Idx) 0).val, idx2_lt0 _⟩ : Fin 8192) = r
  have hrv : r.val = t.val * 1024 + p.val := by rw [← hr]; exact h0
  refine Finset.sum_congr rfl fun k _ => ?_
  rw [iblk0_0_apply V c t (ix2 p k) (ix2 r k) hrv rfl, iblk0_1_apply V c t (ix2 p k) (ix2 r k) hrv rfl]

/-- An index of an array of 8192 rows lies in point t's block iff each coordinate lies in the block's range. -/
theorem mem_blk_prod (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0_0).slice (win0_2.rect t)).set ↔ _
  rw [View.set_slice_whole, Rect.mem_set_unit]
  exact Iff.rfl
theorem mem_blk_sq (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_1).slice (win0_3.rect t)).set ↔ _
  rw [View.set_slice_whole, Rect.mem_set_unit]
  exact Iff.rfl

/-- Row r lies in the block of point r / 1024, which writes back. -/
theorem cover_prod (i : S8192x512.Idx) : ∃ t : Fin cfg0.N, (cfg0.win 2).flush t = true ∧ i ∈ ((cfg0.win 2).blk t).view.set := by
  have hi0 : (i 0).val < 8192 := idx2_lt0 i
  have hi1 : (i 1).val < 512 := idx2_lt1 i
  let t : Fin cfg0.N := ⟨(i 0).val / 1024, by rw [show cfg0.N = 8 from N_0]; omega⟩
  obtain ⟨-, -, -, -, e0, e1, -⟩ := rowBlock_facts t
  refine ⟨t, flush0_2 t, ?_⟩
  rw [mem_blk_prod]
  intro a
  match a with
  | ⟨0, _⟩ => show win0_2.index t (0 : Fin 2) * 1024 ≤ (i 0).val ∧ (i 0).val < win0_2.index t (0 : Fin 2) * 1024 + 1024; rw [e0]; show (i 0).val / 1024 * 1024 ≤ _ ∧ _ < (i 0).val / 1024 * 1024 + 1024; omega
  | ⟨1, _⟩ => show win0_2.index t (1 : Fin 2) * 512 ≤ (i 1).val ∧ (i 1).val < win0_2.index t (1 : Fin 2) * 512 + 512; rw [e1]; omega
theorem cover_sq (i : S8192x1.Idx) : ∃ t : Fin cfg0.N, (cfg0.win 3).flush t = true ∧ i ∈ ((cfg0.win 3).blk t).view.set := by
  have hi0 : (i 0).val < 8192 := idx2_lt0 i
  have hi1 : (i 1).val < 1 := idx2_lt1 i
  let t : Fin cfg0.N := ⟨(i 0).val / 1024, by rw [show cfg0.N = 8 from N_0]; omega⟩
  obtain ⟨-, -, -, -, -, -, e0, e1⟩ := rowBlock_facts t
  refine ⟨t, flush0_3 t, ?_⟩
  rw [mem_blk_sq]
  intro a
  match a with
  | ⟨0, _⟩ => show win0_3.index t (0 : Fin 2) * 1024 ≤ (i 0).val ∧ (i 0).val < win0_3.index t (0 : Fin 2) * 1024 + 1024; rw [e0]; show (i 0).val / 1024 * 1024 ≤ _ ∧ _ < (i 0).val / 1024 * 1024 + 1024; omega
  | ⟨1, _⟩ => show win0_3.index t (1 : Fin 2) * 1 ≤ (i 1).val ∧ (i 1).val < win0_3.index t (1 : Fin 2) * 1 + 1; rw [e1]; omega

/-- After the region the first result's array holds the products, -/
theorem prod_final (c : Dev nD) (r : Fin 8192) (k : Fin 512) :
    ((dat0 V c).arrAt 2 cfg0.N : S8192x512.Idx → EReal) (ix2 r k) = xOf V c r k :=
  congrFun ((dat0 V c).arrAt_eq_of_cover 2 (prodArr V c) (fun t _ => flushed_prod V c t) cover_prod) (ix2 r k)

/-- and the second the rows' sums of squares. -/
theorem sq_final (c : Dev nD) (r : Fin 8192) :
    ((dat0 V c).arrAt 3 cfg0.N : S8192x1.Idx → EReal) (ix2 r 0) = Cert.Spec.sqv (xOf V c) r :=
  congrFun ((dat0 V c).arrAt_eq_of_cover 3 (sqArr V c) (fun t _ => flushed_sq V c t) cover_sq) (ix2 r 0)

end

end Cert.KernelIdeal.Hand

end
-- ==== Proof.KI.PairPoint.lean ====
/-
  One grid point of the second kernel region, read at the extended reals: the row maxima and row minima the body
  computes from the six operand blocks at point (i, j) are, for local row p, the greatest positive-pair distance and
  the least negative-pair distance of global row 1024 i + p against the 512 global columns 512 j + q — the operand
  blocks being the corresponding row and column blocks of the region's operand arrays.
-/
import proofs.«181903_j28338194219418_1_alg».proof.Proof.KI.PairDefs
import proofs.«181903_j28338194219418_1_alg».proof.Proof.Spec
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

/-! ## The body's values at an index, over any six operand blocks -/

/-- The Gram product's contraction: its left operand is read at (row, k), its right operand at (column, k). -/
theorem gramL0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem gramL1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem gramR0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem gramR1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

theorem gram_apply (x0 : FVec Ideal S1024x512 .bf16) (x1 : FVec Ideal S512x512 .bf16) (p : Fin 1024) (q : Fin 512) :
    (matmul dot_S1024x512_S512x512_S1024x512_1_1_0_0_n_n none x0 x1 (constant (F := Ideal) S1024x512 .f32 0x00000000#32) : FVec Ideal S1024x512 .f32) (ix2 p q)
      = ∑ k : Fin 512, x0 (ix2 p k) * x1 (ix2 q k) := by
  simp only [matmul]
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 p q) ((contrEquiv1 dot_S1024x512_S512x512_S1024x512_1_1_0_0_n_n 512 rfl rfl).symm k) = ix2 p k := funext fun a => Fin.ext (by
    match a with
    | ⟨0, _⟩ => exact gramL0 _ _
    | ⟨1, _⟩ => exact (gramL1 _ _).trans hk)
  have er : dot_S1024x512_S512x512_S1024x512_1_1_0_0_n_n.rhsIdx (ix2 p q) ((contrEquiv1 dot_S1024x512_S512x512_S1024x512_1_1_0_0_n_n 512 rfl rfl).symm k) = ix2 q k := funext fun a => Fin.ext (by
    match a with
    | ⟨0, _⟩ => exact gramR0 _ _
    | ⟨1, _⟩ => exact (gramR1 _ _).trans hk)
  rw [el, er]

/-- A column broadcast along the rows: a `[a, 1]` array broadcast to `[a, b]` reads, at `(p, c)`, the operand's row `p`. -/
theorem pair_broadcastCol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the operand at `p`. -/
theorem pair_castCol_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The distances of the block's rows against its columns, entry by entry. -/
theorem k1_pay5_apply (x0 : Vec Ideal S1024x512 .bf16) (x1 : Vec Ideal S512x512 .bf16) (x2 : Vec Ideal S1024x1 .f32) (x3 : Vec Ideal S1x512 .f32)
    (p : Fin 1024) (q : Fin 512) :
    (k1_pay5 x0 x1 x2 x3 : S1024x512.Idx → EReal) (ix2 p q)
      = Ideal.sqrt (max Cert.Spec.eps ((x2 (ix2 p 0) + x3 (ix2 0 q)) - Cert.Spec.two * ∑ k : Fin 512, x0 (ix2 p k) * x1 (ix2 q k))) := by
  unfold k1_pay5
  simp only [shapeCast_self]
  show Ideal.sqrt (max (Ideal.ofBits .f32 0x2B8CBCCC#32)
      ((broadcastTo S1024x512 x2 broadcasts_S1024x1_S1024x512 (ix2 p q) + broadcastTo S1024x512 x3 broadcasts_S1x512_S1024x512 (ix2 p q))
        - Ideal.ofBits .f32 0x40000000#32 * (matmul dot_S1024x512_S512x512_S1024x512_1_1_0_0_n_n none x0 x1 (constant (F := Ideal) S1024x512 .f32 0x00000000#32) : FVec Ideal S1024x512 .f32) (ix2 p q))) = _
  rw [pair_broadcastCol_apply, broadcastTo_1b_ab_apply, gram_apply]
  rfl

/-- A select on the equality test of two words is the `if` on their equality. -/
theorem pair_select_eq {α : Type} {w : ℕ} (a b : BitVec w) (u v : α) :
    Scalar.select (IntOp.cmpi .eq a b) u v = if a = b then u else v := by
  unfold Scalar.select IntOp.cmpi
  by_cases h : a = b
  · have hb : (a == b) = true := by simpa using h
    rw [hb, if_pos h]; exact if_pos (show BitVec.ofBool true = 1#1 from rfl)
  · have hb : (a == b) = false := by simpa using h
    rw [hb, if_neg h]; exact if_neg (show ¬BitVec.ofBool false = 1#1 by decide)

/-- The label test of the block's rows against its columns, entry by entry, inside a select. -/
theorem k1_select_pay6_apply {α : Type} (x4 : Vec Ideal S1024x1 .i32) (x5 : Vec Ideal S1x512 .i32) (u v : S1024x512.Idx → α) (p : Fin 1024) (q : Fin 512) :
    select (k1_pay6 (F := Ideal) x4 x5) u v (ix2 p q) = if x4 (ix2 p 0) = x5 (ix2 0 q) then u (ix2 p q) else v (ix2 p q) := by
  unfold k1_pay6
  simp only [shapeCast_self]
  show Scalar.select (IntOp.cmpi .eq (broadcastTo S1024x512 x4 broadcasts_S1024x1_S1024x512 (ix2 p q)) (broadcastTo S1024x512 x5 broadcasts_S1x512_S1024x512 (ix2 p q))) _ _ = _
  rw [pair_broadcastCol_apply, broadcastTo_1b_ab_apply, pair_select_eq]

/-- The source index of a reduction along the columns: row `p`, column `q`. -/
theorem pair_lift_row (p : Fin 1024) (q : Fin 512) : reduces_S1024x512_S1024.lift (ix1 p) q = ix2 p q := by
  funext a; apply Fin.ext
  match a with
  | ⟨0, _⟩ => rfl
  | ⟨1, _⟩ => rfl

/-- A row maximum over the block's 512 columns, from −∞, -/
theorem pair_rowMax_apply (src : FVec Ideal S1024x512 .f32) (hacc : (0xFF800000#32 : BitVec 32) = 0xFF800000#32) (p : Fin 1024) :
    multiReduction .maximumf [1] S1024 src 0xFF800000#32 reduces_S1024x512_S1024 (.inl rfl) hacc (ix1 p)
      = (Finset.univ : Finset (Fin 512)).fold max (Ideal.ofBits .f32 0xFF800000#32) (fun q => src (ix2 p q)) := by
  refine (Ideal.multiReduction_maximumf_single src 0xFF800000#32 reduces_S1024x512_S1024 (.inl rfl) hacc (ix1 p)).trans ?_
  exact congrArg (fun f => (Finset.univ : Finset (Fin 512)).fold max (Ideal.ofBits .f32 0xFF800000#32) f) (funext fun q => congrArg src (pair_lift_row p q))

/-- and a row minimum, from +∞. -/
theorem pair_rowMin_apply (src : FVec Ideal S1024x512 .f32) (hacc : (0x7F800000#32 : BitVec 32) = 0x7F800000#32) (p : Fin 1024) :
    multiReduction .minimumf [1] S1024 src 0x7F800000#32 reduces_S1024x512_S1024 (.inl rfl) hacc (ix1 p)
      = (Finset.univ : Finset (Fin 512)).fold min (Ideal.ofBits .f32 0x7F800000#32) (fun q => src (ix2 p q)) := by
  refine (multiReduction_minimumf_eq_fold src 0x7F800000#32 reduces_S1024x512_S1024 (.inl rfl) hacc (ix1 p)).trans ?_
  refine (reduces_S1024x512_S1024.fold_filter_drop_single _ _ src (ix1 p)).trans ?_
  exact congrArg (fun f => (Finset.univ : Finset (Fin 512)).fold min (Ideal.ofBits .f32 0x7F800000#32) f) (funext fun q => congrArg src (pair_lift_row p q))

/-- The block's row maxima over the positives: at row `p`, the greatest, over the block's 512 columns `q`, of the distance
    of row `p` and column `q` where their labels agree, −∞ where they do not. -/
theorem k1_pay7_apply (x0 : Vec Ideal S1024x512 .bf16) (x1 : Vec Ideal S512x512 .bf16) (x2 : Vec Ideal S1024x1 .f32) (x3 : Vec Ideal S1x512 .f32)
    (x4 : Vec Ideal S1024x1 .i32) (x5 : Vec Ideal S1x512 .i32) (p : Fin 1024) :
    (k1_pay7 x0 x1 x2 x3 x4 x5 : S1024x1.Idx → EReal) (ix2 p 0)
      = (Finset.univ : Finset (Fin 512)).fold max Cert.Spec.negInf (fun q =>
          if (x4 (ix2 p 0) : BitVec 32) = x5 (ix2 0 q)
            then Ideal.sqrt (max Cert.Spec.eps ((x2 (ix2 p 0) + x3 (ix2 0 q)) - Cert.Spec.two * ∑ k : Fin 512, x0 (ix2 p k) * x1 (ix2 q k)))
            else Cert.Spec.negInf) := by
  unfold k1_pay7
  refine (pair_castCol_apply _ shapeCasts_S1024_S1024x1 p 0).trans ?_
  refine (pair_rowMax_apply _ rfl p).trans ?_
  refine congrArg (fun f => (Finset.univ : Finset (Fin 512)).fold max Cert.Spec.negInf f) (funext fun q => ?_)
  rw [k1_select_pay6_apply, k1_pay5_apply]
  rfl

/-- The block's row minima over the negatives: at row `p`, the least, over the block's 512 columns `q`, of the distance of
    row `p` and column `q` where their labels differ, +∞ where they agree. -/
theorem k1_pay8_apply (x0 : Vec Ideal S1024x512 .bf16) (x1 : Vec Ideal S512x512 .bf16) (x2 : Vec Ideal S1024x1 .f32) (x3 : Vec Ideal S1x512 .f32)
    (x4 : Vec Ideal S1024x1 .i32) (x5 : Vec Ideal S1x512 .i32) (p : Fin 1024) :
    (k1_pay8 x0 x1 x2 x3 x4 x5 : S1024x1.Idx → EReal) (ix2 p 0)
      = (Finset.univ : Finset (Fin 512)).fold min Cert.Spec.posInf (fun q =>
          if (x4 (ix2 p 0) : BitVec 32) = x5 (ix2 0 q)
            then Cert.Spec.posInf
            else Ideal.sqrt (max Cert.Spec.eps ((x2 (ix2 p 0) + x3 (ix2 0 q)) - Cert.Spec.two * ∑ k : Fin 512, x0 (ix2 p k) * x1 (ix2 q k)))) := by
  unfold k1_pay8
  refine (pair_castCol_apply _ shapeCasts_S1024_S1024x1 p 0).trans ?_
  refine (pair_rowMin_apply _ rfl p).trans ?_
  refine congrArg (fun f => (Finset.univ : Finset (Fin 512)).fold min Cert.Spec.posInf f) (funext fun q => ?_)
  rw [k1_select_pay6_apply, k1_pay5_apply]
  rfl

section
variable (V : (c : Dev nD) → (b : Ref sig .tc) → Buf (Elt Ideal) ((c : Thread nD τ).loc b))

/-- The second region's operand arrays as it finds them, at their literal types: the narrowed products, the rows' sums
    of squares as a column and as a row, the labels as a column and as a row. -/
abbrev xbArr (c : Dev nD) : S8192x512.Idx → EReal := V c main_v0_0
abbrev sqColArr (c : Dev nD) : S8192x1.Idx → EReal := V c main_v0_1
abbrev sqRowArr (c : Dev nD) : S1x8192.Idx → EReal := V c main_v3
abbrev labColArr (c : Dev nD) : S8192x1.Idx → BitVec 32 := V c main_v1
abbrev labRowArr (c : Dev nD) : S1x8192.Idx → BitVec 32 := V c main_v2

/-- The distance of rows `r` and `s` as the kernel computes it from those arrays, and what `s` contributes to `r`'s
    extremes. -/
def distK (c : Dev nD) (r s : Fin 8192) : EReal :=
  Ideal.sqrt (max Cert.Spec.eps ((sqColArr V c (ix2 r 0) + sqRowArr V c (ix2 0 s)) - Cert.Spec.two * ∑ k : Fin 512, xbArr V c (ix2 r k) * xbArr V c (ix2 s k)))
def posK (c : Dev nD) (r s : Fin 8192) : EReal :=
  if labColArr V c (ix2 r 0) = labRowArr V c (ix2 0 s) then distK V c r s else Cert.Spec.negInf
def negK (c : Dev nD) (r s : Fin 8192) : EReal :=
  if labColArr V c (ix2 r 0) = labRowArr V c (ix2 0 s) then Cert.Spec.posInf else distK V c r s

/-- The global row of local row `p` at point `t` (row block `t / 16`), and the global column of local column `q` there
    (column block `t % 16`). -/
def gRow (t : Fin cfg1.N) (p : Fin 1024) : Fin 8192 :=
  ⟨1024 * (t.val / 16) + p.val, by have := t.isLt; have : cfg1.N = 128 := N_1; omega⟩
def gCol (t : Fin cfg1.N) (q : Fin 512) : Fin 8192 :=
  ⟨512 * (t.val % 16) + q.val, by omega⟩

/-! ## The six operand blocks, read where they come from -/

/-- The block indices of the six operand windows at point `t`: the row block `t / 16` or the column block `t % 16` on the
    axis the window moves along, `0` on the other. -/
theorem pair_idx_facts : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = 0
    ∧ win1_5.index t (0 : Fin 2) = 0 ∧ win1_5.index t (1 : Fin 2) = t.val % 16 :=
  (by decide +kernel : ∀ t : Fin grid1.N, _)

/-- An element of a block sits in its array, on each axis, at the block index times the block's extent plus its own
    coordinate. The row block of the narrowed products is rows `1024 (t / 16) + p`, -/
theorem rowsBlk_apply (c : Dev nD) (t : Fin cfg1.N) (p : Fin 1024) (k : Fin 512) :
    (rowsBlk V c t : S1024x512.Idx → EReal) (ix2 p k) = xbArr V c (ix2 (gRow t p) k) := by
  obtain ⟨e0, e1, -⟩ := pair_idx_facts t
  show V c main_v0_0 (((cfg1.win 0).blk t).view.emb (ix2 p k)) = V c main_v0_0 (ix2 (gRow t p) k)
  refine congrArg (V c main_v0_0) (funext fun a => Fin.ext ?_)
  match a with
  | ⟨0, _⟩ => show win1_0.index t (0 : Fin 2) * 1024 + 1 * p.val = 1024 * (t.val / 16) + p.val; omega
  | ⟨1, _⟩ => show win1_0.index t (1 : Fin 2) * 512 + 1 * k.val = k.val; omega
/-- the column block rows `512 (t % 16) + q` of the same array, -/
theorem colsBlk_apply (c : Dev nD) (t : Fin cfg1.N) (q : Fin 512) (k : Fin 512) :
    (colsBlk V c t : S512x512.Idx → EReal) (ix2 q k) = xbArr V c (ix2 (gCol t q) k) := by
  obtain ⟨-, -, e0, e1, -⟩ := pair_idx_facts t
  show V c main_v0_0 (((cfg1.win 1).blk t).view.emb (ix2 q k)) = V c main_v0_0 (ix2 (gCol t q) k)
  refine congrArg (V c main_v0_0) (funext fun a => Fin.ext ?_)
  match a with
  | ⟨0, _⟩ => show win1_1.index t (0 : Fin 2) * 512 + 1 * q.val = 512 * (t.val % 16) + q.val; omega
  | ⟨1, _⟩ => show win1_1.index t (1 : Fin 2) * 512 + 1 * k.val = k.val; omega
/-- the sums of squares as a column those of rows `1024 (t / 16) + p`, -/
theorem sqRowBlk_apply (c : Dev nD) (t : Fin cfg1.N) (p : Fin 1024) :
    (sqRowBlk V c t : S1024x1.Idx → EReal) (ix2 p 0) = sqColArr V c (ix2 (gRow t p) 0) := by
  obtain ⟨-, -, -, -, e0, e1, -⟩ := pair_idx_facts t
  show V c main_v0_1 (((cfg1.win 2).blk t).view.emb (ix2 p 0)) = V c main_v0_1 (ix2 (gRow t p) 0)
  refine congrArg (V c main_v0_1) (funext fun a => Fin.ext ?_)
  match a with
  | ⟨0, _⟩ => show win1_2.index t (0 : Fin 2) * 1024 + 1 * p.val = 1024 * (t.val / 16) + p.val; omega
  | ⟨1, _⟩ => show win1_2.index t (1 : Fin 2) * 1 + 1 * 0 = 0; omega
/-- as a row those of rows `512 (t % 16) + q`, -/
theorem sqColBlk_apply (c : Dev nD) (t : Fin cfg1.N) (q : Fin 512) :
    (sqColBlk V c t : S1x512.Idx → EReal) (ix2 0 q) = sqRowArr V c (ix2 0 (gCol t q)) := by
  obtain ⟨-, -, -, -, -, -, e0, e1, -⟩ := pair_idx_facts t
  show V c main_v3 (((cfg1.win 3).blk t).view.emb (ix2 0 q)) = V c main_v3 (ix2 0 (gCol t q))
  refine congrArg (V c main_v3) (funext fun a => Fin.ext ?_)
  match a with
  | ⟨0, _⟩ => show win1_3.index t (0 : Fin 2) * 1 + 1 * 0 = 0; omega
  | ⟨1, _⟩ => show win1_3.index t (1 : Fin 2) * 512 + 1 * q.val = 512 * (t.val % 16) + q.val; omega
/-- and the labels likewise, as a column -/
theorem labRowBlk_apply (c : Dev nD) (t : Fin cfg1.N) (p : Fin 1024) :
    (labRowBlk V c t : S1024x1.Idx → BitVec 32) (ix2 p 0) = labColArr V c (ix2 (gRow t p) 0) := by
  obtain ⟨-, -, -, -, -, -, -, -, e0, e1, -⟩ := pair_idx_facts t
  show V c main_v1 (((cfg1.win 4).blk t).view.emb (ix2 p 0)) = V c main_v1 (ix2 (gRow t p) 0)
  refine congrArg (V c main_v1) (funext fun a => Fin.ext ?_)
  match a with
  | ⟨0, _⟩ => show win1_4.index t (0 : Fin 2) * 1024 + 1 * p.val = 1024 * (t.val / 16) + p.val; omega
  | ⟨1, _⟩ => show win1_4.index t (1 : Fin 2) * 1 + 1 * 0 = 0; omega
/-- and as a row. -/
theorem labColBlk_apply (c : Dev nD) (t : Fin cfg1.N) (q : Fin 512) :
    (labColBlk V c t : S1x512.Idx → BitVec 32) (ix2 0 q) = labRowArr V c (ix2 0 (gCol t q)) := by
  obtain ⟨-, -, -, -, -, -, -, -, -, -, e0, e1⟩ := pair_idx_facts t
  show V c main_v2 (((cfg1.win 5).blk t).view.emb (ix2 0 q)) = V c main_v2 (ix2 0 (gCol t q))
  refine congrArg (V c main_v2) (funext fun a => Fin.ext ?_)
  match a with
  | ⟨0, _⟩ => show win1_5.index t (0 : Fin 2) * 1 + 1 * 0 = 0; omega
  | ⟨1, _⟩ => show win1_5.index t (1 : Fin 2) * 512 + 1 * q.val = 512 * (t.val % 16) + q.val; omega

/-- This point's row maxima over the positives, -/
theorem curMax_apply (c : Dev nD) (t : Fin cfg1.N) (p : Fin 1024) :
    (curMax V c t : S1024x1.Idx → EReal) (ix2 p 0)
      = (Finset.univ : Finset (Fin 512)).fold max Cert.Spec.negInf (fun q => posK V c (gRow t p) (gCol t q)) := by
  unfold curMax
  refine (k1_pay7_apply _ _ _ _ _ _ p).trans ?_
  refine congrArg (fun f => (Finset.univ : Finset (Fin 512)).fold max Cert.Spec.negInf f) (funext fun q => ?_)
  unfold posK distK
  rw [labRowBlk_apply, labColBlk_apply, sqRowBlk_apply, sqColBlk_apply]
  simp only [rowsBlk_apply, colsBlk_apply]

/-- and row minima over the negatives. -/
theorem curMin_apply (c : Dev nD) (t : Fin cfg1.N) (p : Fin 1024) :
    (curMin V c t : S1024x1.Idx → EReal) (ix2 p 0)
      = (Finset.univ : Finset (Fin 512)).fold min Cert.Spec.posInf (fun q => negK V c (gRow t p) (gCol t q)) := by
  unfold curMin
  refine (k1_pay8_apply _ _ _ _ _ _ p).trans ?_
  refine congrArg (fun f => (Finset.univ : Finset (Fin 512)).fold min Cert.Spec.posInf f) (funext fun q => ?_)
  unfold negK distK
  rw [labRowBlk_apply, labColBlk_apply, sqRowBlk_apply, sqColBlk_apply]
  simp only [rowsBlk_apply, colsBlk_apply]

end

end Cert.KernelIdeal.Hand

end
-- ==== Proof.KI.PairValue.lean ====
/-
  What the second kernel region leaves in its two results' arrays, read at the extended reals: row r of the first holds
  the greatest of the positive-pair distances of row r against all 8192 rows, row r of the second the least of the
  negative-pair distances. The scratch columns accumulate, over the sixteen column blocks of a row block, the running
  maximum and minimum of the per-block extremes (a fold of max / min in any order is the fold over the union of the
  blocks' columns), and the last column block's point copies them to the result block, which no other point writes.
-/
import proofs.«181903_j28338194219418_1_alg».proof.Proof.KI.PairPoint
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

section
variable (V : (c : Dev nD) → (b : Ref sig .tc) → Buf (Elt Ideal) ((c : Thread nD τ).loc b))

/-! ## The running extremes' payloads at an index -/

/-- Folding a point's row maxima into what the scratch held takes, row by row, the greater of the two. -/
theorem foldMax_apply (cur prev : Vec Ideal S1024x1 .f32) (y : S1024x1.Idx) :
    (k1_pay1 cur prev : S1024x1.Idx → EReal) y = max ((prev : S1024x1.Idx → EReal) y) ((cur : S1024x1.Idx → EReal) y) := by
  unfold k1_pay1
  simp only [shapeCast_self]
  rfl
/-- Folding a point's row minima into what the scratch held takes, row by row, the lesser of the two. -/
theorem foldMin_apply (cur prev : Vec Ideal S1024x1 .f32) (y : S1024x1.Idx) :
    (k1_pay2 cur prev : S1024x1.Idx → EReal) y = min ((prev : S1024x1.Idx → EReal) y) ((cur : S1024x1.Idx → EReal) y) := by
  unfold k1_pay2
  simp only [shapeCast_self]
  rfl
/-- The reset value of the running maxima is −∞ in every row, -/
theorem resetMax_apply (y : S1024x1.Idx) : (k1_pay3 (F := Ideal) : S1024x1.Idx → EReal) y = Cert.Spec.negInf := by
  unfold k1_pay3
  simp only [shapeCast_self]
  rfl
/-- that of the running minima +∞. -/
theorem resetMin_apply (y : S1024x1.Idx) : (k1_pay4 (F := Ideal) : S1024x1.Idx → EReal) y = Cert.Spec.posInf := by
  unfold k1_pay4
  simp only [shapeCast_self]
  rfl

/-! ## The running extremes over the points, by their bounds

An extended real bounds a fold of max from above exactly when it bounds the start value and every term; so the
running maximum after point 16 i + j is pinned down by its set of upper bounds — those of −∞ and of the contributions
of the columns below 512 (j + 1) — and never by the order in which the blocks were folded in. -/

/-- The global row of a local row depends on the row block alone: it does not move within a run of column blocks. -/
theorem gRow_succ (n : ℕ) (h : n + 1 < cfg1.N) (hm : ¬(n + 1) % 16 = 0) (p : Fin 1024) :
    gRow ⟨n + 1, h⟩ p = gRow ⟨n, Nat.lt_of_succ_lt h⟩ p := by
  apply Fin.ext
  show 1024 * ((n + 1) / 16) + p.val = 1024 * (n / 16) + p.val
  omega

/-- A property of all the columns of the point's block, said of the global columns in the block's range. -/
theorem forall_gCol_iff (t : Fin cfg1.N) (P : Fin 8192 → Prop) :
    (∀ q : Fin 512, P (gCol t q)) ↔ ∀ s : Fin 8192, 512 * (t.val % 16) ≤ s.val → s.val < 512 * (t.val % 16) + 512 → P s := by
  constructor
  · intro hq s h1 h2
    have e : gCol t ⟨s.val - 512 * (t.val % 16), by omega⟩ = s := by
      apply Fin.ext
      show 512 * (t.val % 16) + (s.val - 512 * (t.val % 16)) = s.val
      omega
    exact e ▸ hq ⟨s.val - 512 * (t.val % 16), by omega⟩
  · intro hs q
    refine hs (gCol t q) ?_ ?_
    · show 512 * (t.val % 16) ≤ 512 * (t.val % 16) + q.val
      omega
    · show 512 * (t.val % 16) + q.val < 512 * (t.val % 16) + 512
      have := q.isLt
      omega

/-- The upper bounds of a point's row maximum: those of −∞ and of the block's columns' contributions. -/
theorem curMax_le_iff (c : Dev nD) (t : Fin cfg1.N) (p : Fin 1024) (z : EReal) :
    (curMax V c t : S1024x1.Idx → EReal) (ix2 p 0) ≤ z
      ↔ Cert.Spec.negInf ≤ z ∧ ∀ s : Fin 8192, 512 * (t.val % 16) ≤ s.val → s.val < 512 * (t.val % 16) + 512 → posK V c (gRow t p) s ≤ z := by
  rw [curMax_apply, Finset.fold_max_le, ← forall_gCol_iff t (fun s => posK V c (gRow t p) s ≤ z)]
  simp only [Finset.mem_univ, forall_const]
/-- The lower bounds of a point's row minimum: those of +∞ and of the block's columns' contributions. -/
theorem le_curMin_iff (c : Dev nD) (t : Fin cfg1.N) (p : Fin 1024) (z : EReal) :
    z ≤ (curMin V c t : S1024x1.Idx → EReal) (ix2 p 0)
      ↔ z ≤ Cert.Spec.posInf ∧ ∀ s : Fin 8192, 512 * (t.val % 16) ≤ s.val → s.val < 512 * (t.val % 16) + 512 → z ≤ negK V c (gRow t p) s := by
  rw [curMin_apply, Finset.le_fold_min, ← forall_gCol_iff t (fun s => z ≤ negK V c (gRow t p) s)]
  simp only [Finset.mem_univ, forall_const]

/-- The upper bounds of the running maximum after point `n`: those of −∞ and of the contributions of the columns of
    the blocks folded in so far, the first 512 (n % 16 + 1) columns. -/
theorem runMax_le_iff (c : Dev nD) : ∀ (n : ℕ) (h : n < cfg1.N) (p : Fin 1024) (z : EReal),
    (runMax V c n h : S1024x1.Idx → EReal) (ix2 p 0) ≤ z
      ↔ Cert.Spec.negInf ≤ z ∧ ∀ s : Fin 8192, s.val < 512 * (n % 16 + 1) → posK V c (gRow ⟨n, h⟩ p) s ≤ z := by
  have first : ∀ (n : ℕ) (h : n < cfg1.N), n % 16 = 0 → ∀ (p : Fin 1024) (z : EReal),
      (runMax V c n h : S1024x1.Idx → EReal) (ix2 p 0) ≤ z
        ↔ Cert.Spec.negInf ≤ z ∧ ∀ s : Fin 8192, s.val < 512 * (n % 16 + 1) → posK V c (gRow ⟨n, h⟩ p) s ≤ z := by
    intro n h h0 p z
    have e : runMax V c n h = k1_pay1 (curMax V c ⟨n, h⟩) (k1_pay3 (F := Ideal)) := runMax_first V c ⟨n, h⟩ h0
    rw [e, foldMax_apply, resetMax_apply, max_le_iff, curMax_le_iff]
    show _ ∧ (_ ∧ ∀ s : Fin 8192, 512 * (n % 16) ≤ s.val → s.val < 512 * (n % 16) + 512 → _) ↔ _
    rw [h0]
    constructor
    · rintro ⟨hb, -, hs⟩
      exact ⟨hb, fun s hlt => hs s (by omega) (by omega)⟩
    · rintro ⟨hb, hs⟩
      exact ⟨hb, hb, fun s _ hlt => hs s (by omega)⟩
  intro n
  induction n with
  | zero => intro h; exact first 0 h rfl
  | succ n ih =>
    intro h p z
    by_cases hm : (n + 1) % 16 = 0
    · exact first (n + 1) h hm p z
    · have e : runMax V c (n + 1) h = k1_pay1 (curMax V c ⟨n + 1, h⟩) (runMax V c n (Nat.lt_of_succ_lt h)) :=
        runMax_next V c ⟨n + 1, h⟩ hm
      rw [e, foldMax_apply, max_le_iff, ih (Nat.lt_of_succ_lt h) p z, curMax_le_iff, gRow_succ n h hm p]
      show (_ ∧ _) ∧ (_ ∧ ∀ s : Fin 8192, 512 * ((n + 1) % 16) ≤ s.val → s.val < 512 * ((n + 1) % 16) + 512 → _) ↔ _
      have hmod : (n + 1) % 16 = n % 16 + 1 := by omega
      rw [hmod]
      constructor
      · rintro ⟨⟨hb, hlo⟩, -, hhi⟩
        refine ⟨hb, fun s hlt => ?_⟩
        by_cases hs : s.val < 512 * (n % 16 + 1)
        · exact hlo s hs
        · exact hhi s (by omega) (by omega)
      · rintro ⟨hb, hs⟩
        exact ⟨⟨hb, fun s hlt => hs s (by omega)⟩, hb, fun s _ hlt => hs s (by omega)⟩

/-- The lower bounds of the running minimum after point `n`: those of +∞ and of the contributions of the first
    512 (n % 16 + 1) columns. -/
theorem le_runMin_iff (c : Dev nD) : ∀ (n : ℕ) (h : n < cfg1.N) (p : Fin 1024) (z : EReal),
    z ≤ (runMin V c n h : S1024x1.Idx → EReal) (ix2 p 0)
      ↔ z ≤ Cert.Spec.posInf ∧ ∀ s : Fin 8192, s.val < 512 * (n % 16 + 1) → z ≤ negK V c (gRow ⟨n, h⟩ p) s := by
  have first : ∀ (n : ℕ) (h : n < cfg1.N), n % 16 = 0 → ∀ (p : Fin 1024) (z : EReal),
      z ≤ (runMin V c n h : S1024x1.Idx → EReal) (ix2 p 0)
        ↔ z ≤ Cert.Spec.posInf ∧ ∀ s : Fin 8192, s.val < 512 * (n % 16 + 1) → z ≤ negK V c (gRow ⟨n, h⟩ p) s := by
    intro n h h0 p z
    have e : runMin V c n h = k1_pay2 (curMin V c ⟨n, h⟩) (k1_pay4 (F := Ideal)) := runMin_first V c ⟨n, h⟩ h0
    rw [e, foldMin_apply, resetMin_apply, le_min_iff, le_curMin_iff]
    show _ ∧ (_ ∧ ∀ s : Fin 8192, 512 * (n % 16) ≤ s.val → s.val < 512 * (n % 16) + 512 → _) ↔ _
    rw [h0]
    constructor
    · rintro ⟨hb, -, hs⟩
      exact ⟨hb, fun s hlt => hs s (by omega) (by omega)⟩
    · rintro ⟨hb, hs⟩
      exact ⟨hb, hb, fun s _ hlt => hs s (by omega)⟩
  intro n
  induction n with
  | zero => intro h; exact first 0 h rfl
  | succ n ih =>
    intro h p z
    by_cases hm : (n + 1) % 16 = 0
    · exact first (n + 1) h hm p z
    · have e : runMin V c (n + 1) h = k1_pay2 (curMin V c ⟨n + 1, h⟩) (runMin V c n (Nat.lt_of_succ_lt h)) :=
        runMin_next V c ⟨n + 1, h⟩ hm
      rw [e, foldMin_apply, le_min_iff, ih (Nat.lt_of_succ_lt h) p z, le_curMin_iff, gRow_succ n h hm p]
      show (_ ∧ _) ∧ (_ ∧ ∀ s : Fin 8192, 512 * ((n + 1) % 16) ≤ s.val → s.val < 512 * ((n + 1) % 16) + 512 → _) ↔ _
      have hmod : (n + 1) % 16 = n % 16 + 1 := by omega
      rw [hmod]
      constructor
      · rintro ⟨⟨hb, hlo⟩, -, hhi⟩
        refine ⟨hb, fun s hlt => ?_⟩
        by_cases hs : s.val < 512 * (n % 16 + 1)
        · exact hlo s hs
        · exact hhi s (by omega) (by omega)
      · rintro ⟨hb, hs⟩
        exact ⟨⟨hb, fun s hlt => hs s (by omega)⟩, hb, fun s _ hlt => hs s (by omega)⟩

/-! ## From the blocks to the arrays

Each result column is written back only by the last point of a run of column blocks, 16 i + 15, through row block i;
there the running extreme has folded in all sixteen column blocks, that is all 8192 columns. The eight row blocks tile
the column, so the array ends holding, row by row, the fold over all the columns. -/

/-- The row an index of a result column names. -/
def rowOf (i : S8192x1.Idx) : Fin 8192 := ⟨(i 0).val, idx2_lt0 i⟩

/-- What the two result columns end holding: each row's fold over all the columns. -/
def hardPosArr (c : Dev nD) : S8192x1.Idx → EReal :=
  fun i => (Finset.univ : Finset (Fin 8192)).fold max Cert.Spec.negInf (posK V c (rowOf i))
def hardNegArr (c : Dev nD) : S8192x1.Idx → EReal :=
  fun i => (Finset.univ : Finset (Fin 8192)).fold min Cert.Spec.posInf (negK V c (rowOf i))

/-- A local index of a 1024 × 1 block is its row and column 0. -/
theorem eq_ix2_zero (y : S1024x1.Idx) : y = ix2 (y 0) 0 := by
  funext a
  match a with
  | ⟨0, _⟩ => rfl
  | ⟨1, _⟩ => exact Fin.ext (by have h1 : (y 1).val < 1 := idx2_lt1 y; show (y 1).val = 0; omega)

/-- At the last column block the running maximum has seen every column, -/
theorem runMax_last_apply (c : Dev nD) (t : Fin cfg1.N) (h15 : t.val % 16 = 15) (y : S1024x1.Idx) :
    (runMax V c t.val t.isLt : S1024x1.Idx → EReal) y
      = (Finset.univ : Finset (Fin 8192)).fold max Cert.Spec.negInf (posK V c (gRow t (y 0))) := by
  obtain ⟨p, rfl⟩ : ∃ p : Fin 1024, y = ix2 p 0 := ⟨y 0, eq_ix2_zero y⟩
  show (runMax V c t.val t.isLt : S1024x1.Idx → EReal) (ix2 p 0)
    = (Finset.univ : Finset (Fin 8192)).fold max Cert.Spec.negInf (posK V c (gRow t p))
  refine eq_of_forall_ge_iff fun z => ?_
  rw [runMax_le_iff V c t.val t.isLt p z, Finset.fold_max_le]
  simp only [Finset.mem_univ, forall_const]
  have hlt : ∀ s : Fin 8192, s.val < 512 * (t.val % 16 + 1) := fun s => by have := s.isLt; omega
  exact ⟨fun ⟨hb, hs⟩ => ⟨hb, fun s => hs s (hlt s)⟩, fun ⟨hb, hs⟩ => ⟨hb, fun s _ => hs s⟩⟩
/-- and so has the running minimum. -/
theorem runMin_last_apply (c : Dev nD) (t : Fin cfg1.N) (h15 : t.val % 16 = 15) (y : S1024x1.Idx) :
    (runMin V c t.val t.isLt : S1024x1.Idx → EReal) y
      = (Finset.univ : Finset (Fin 8192)).fold min Cert.Spec.posInf (negK V c (gRow t (y 0))) := by
  obtain ⟨p, rfl⟩ : ∃ p : Fin 1024, y = ix2 p 0 := ⟨y 0, eq_ix2_zero y⟩
  show (runMin V c t.val t.isLt : S1024x1.Idx → EReal) (ix2 p 0)
    = (Finset.univ : Finset (Fin 8192)).fold min Cert.Spec.posInf (negK V c (gRow t p))
  refine eq_of_forall_le_iff fun z => ?_
  rw [le_runMin_iff V c t.val t.isLt p z, Finset.le_fold_min]
  simp only [Finset.mem_univ, forall_const]
  have hlt : ∀ s : Fin 8192, s.val < 512 * (t.val % 16 + 1) := fun s => by have := s.isLt; omega
  exact ⟨fun ⟨hb, hs⟩ => ⟨hb, fun s => hs s (hlt s)⟩, fun ⟨hb, hs⟩ => ⟨hb, fun s _ => hs s⟩⟩

/-- The result windows' block at point `t` is row block `t / 16`, column block 0. -/
theorem idx_max : ∀ t : Fin cfg1.N, win1_6.index t (0 : Fin 2) = t.val / 16 ∧ win1_6.index t (1 : Fin 2) = 0 :=
  (by decide +kernel : ∀ t : Fin grid1.N, _)
theorem idx_min : ∀ t : Fin cfg1.N, win1_7.index t (0 : Fin 2) = t.val / 16 ∧ win1_7.index t (1 : Fin 2) = 0 :=
  (by decide +kernel : ∀ t : Fin grid1.N, _)

/-- What a writing point writes back is its block of the column of folds. -/
theorem flushedMax_eq (c : Dev nD) (t : Fin cfg1.N) (hf : (cfg1.win 6).flush t = true) :
    (dat1 V c).flushed 6 t = ((cfg1.win 6).blk t).view.read (Elt Ideal) (hardPosArr V c) := by
  have h15 : t.val % 16 = 15 := (flush1_6 t).mp hf
  show (cfg1.win 6).cut (grid1.coords t) ((dat1 V c).after 6 t) = _
  rw [after1_6]
  funext y
  show (runMax V c t.val t.isLt : S1024x1.Idx → EReal) y = hardPosArr V c (((cfg1.win 6).blk t).view.emb y)
  have er : rowOf (((cfg1.win 6).blk t).view.emb y) = gRow t (y 0) := Fin.ext (by
    show win1_6.index t (0 : Fin 2) * 1024 + 1 * (y 0).val = 1024 * (t.val / 16) + (y 0).val
    rw [(idx_max t).1]; omega)
  rw [runMax_last_apply V c t h15 y]
  unfold hardPosArr
  rw [er]
theorem flushedMin_eq (c : Dev nD) (t : Fin cfg1.N) (hf : (cfg1.win 7).flush t = true) :
    (dat1 V c).flushed 7 t = ((cfg1.win 7).blk t).view.read (Elt Ideal) (hardNegArr V c) := by
  have h15 : t.val % 16 = 15 := (flush1_7 t).mp hf
  show (cfg1.win 7).cut (grid1.coords t) ((dat1 V c).after 7 t) = _
  rw [after1_7]
  funext y
  show (runMin V c t.val t.isLt : S1024x1.Idx → EReal) y = hardNegArr V c (((cfg1.win 7).blk t).view.emb y)
  have er : rowOf (((cfg1.win 7).blk t).view.emb y) = gRow t (y 0) := Fin.ext (by
    show win1_7.index t (0 : Fin 2) * 1024 + 1 * (y 0).val = 1024 * (t.val / 16) + (y 0).val
    rw [(idx_min t).1]; omega)
  rw [runMin_last_apply V c t h15 y]
  unfold hardNegArr
  rw [er]

/-- An index of a result column is in point `t`'s block iff each coordinate is in the block's range on its axis. -/
theorem mem_blk_max (t : Fin cfg1.N) (i : S8192x1.Idx) :
    i ∈ ((cfg1.win 6).blk t).view.set
      ↔ ∀ a : Fin 2, win1_6.index t a * S1024x1.size a ≤ (i a).val ∧ (i a).val < win1_6.index t a * S1024x1.size a + S1024x1.size a := by
  show i ∈ ((View.whole main_v4_0).slice (win1_6.rect t)).set ↔ _
  rw [View.set_slice_whole, Rect.mem_set_unit]
  exact Iff.rfl
theorem mem_blk_min (t : Fin cfg1.N) (i : S8192x1.Idx) :
    i ∈ ((cfg1.win 7).blk t).view.set
      ↔ ∀ a : Fin 2, win1_7.index t a * S1024x1.size a ≤ (i a).val ∧ (i a).val < win1_7.index t a * S1024x1.size a + S1024x1.size a := by
  show i ∈ ((View.whole main_v4_1).slice (win1_7.rect t)).set ↔ _
  rw [View.set_slice_whole, Rect.mem_set_unit]
  exact Iff.rfl

/-- The writing point whose block holds row `i 0`: the last column block of row block `i 0 / 1024`. -/
def lastPt (i : S8192x1.Idx) : Fin cfg1.N :=
  ⟨16 * ((i 0).val / 1024) + 15, by have := idx2_lt0 i; have : cfg1.N = 128 := N_1; omega⟩

/-- Every row of a result column is in the block of a point that writes it back. -/
theorem cover_max (i : S8192x1.Idx) : ∃ t : Fin cfg1.N, (cfg1.win 6).flush t = true ∧ i ∈ ((cfg1.win 6).blk t).view.set := by
  have hi0 : (i 0).val < 8192 := idx2_lt0 i
  have hi1 : (i 1).val < 1 := idx2_lt1 i
  refine ⟨lastPt i, (flush1_6 _).mpr (by show (16 * ((i 0).val / 1024) + 15) % 16 = 15; omega), ?_⟩
  rw [mem_blk_max]
  obtain ⟨e0, e1⟩ := idx_max (lastPt i)
  have e0' : win1_6.index (lastPt i) (0 : Fin 2) = (16 * ((i 0).val / 1024) + 15) / 16 := e0
  intro a
  match a with
  | ⟨0, _⟩ =>
    show win1_6.index (lastPt i) (0 : Fin 2) * 1024 ≤ (i 0).val ∧ (i 0).val < win1_6.index (lastPt i) (0 : Fin 2) * 1024 + 1024
    rw [e0']; omega
  | ⟨1, _⟩ =>
    show win1_6.index (lastPt i) (1 : Fin 2) * 1 ≤ (i 1).val ∧ (i 1).val < win1_6.index (lastPt i) (1 : Fin 2) * 1 + 1
    rw [e1]; omega
theorem cover_min (i : S8192x1.Idx) : ∃ t : Fin cfg1.N, (cfg1.win 7).flush t = true ∧ i ∈ ((cfg1.win 7).blk t).view.set := by
  have hi0 : (i 0).val < 8192 := idx2_lt0 i
  have hi1 : (i 1).val < 1 := idx2_lt1 i
  refine ⟨lastPt i, (flush1_7 _).mpr (by show (16 * ((i 0).val / 1024) + 15) % 16 = 15; omega), ?_⟩
  rw [mem_blk_min]
  obtain ⟨e0, e1⟩ := idx_min (lastPt i)
  have e0' : win1_7.index (lastPt i) (0 : Fin 2) = (16 * ((i 0).val / 1024) + 15) / 16 := e0
  intro a
  match a with
  | ⟨0, _⟩ =>
    show win1_7.index (lastPt i) (0 : Fin 2) * 1024 ≤ (i 0).val ∧ (i 0).val < win1_7.index (lastPt i) (0 : Fin 2) * 1024 + 1024
    rw [e0']; omega
  | ⟨1, _⟩ =>
    show win1_7.index (lastPt i) (1 : Fin 2) * 1 ≤ (i 1).val ∧ (i 1).val < win1_7.index (lastPt i) (1 : Fin 2) * 1 + 1
    rw [e1]; omega

/-- So the two result columns end holding the columns of folds. -/
theorem arr_max (c : Dev nD) : (dat1 V c).arrAt 6 cfg1.N = hardPosArr V c :=
  (dat1 V c).arrAt_eq_of_cover 6 (hardPosArr V c) (flushedMax_eq V c) cover_max
theorem arr_min (c : Dev nD) : (dat1 V c).arrAt 7 cfg1.N = hardNegArr V c :=
  (dat1 V c).arrAt_eq_of_cover 7 (hardNegArr V c) (flushedMin_eq V c) cover_min

/-- After the region the first result's array holds each row's hardest positive, -/
theorem ap_final (c : Dev nD) (r : Fin 8192) :
    ((dat1 V c).arrAt 6 cfg1.N : S8192x1.Idx → EReal) (ix2 r 0)
      = (Finset.univ : Finset (Fin 8192)).fold max Cert.Spec.negInf (posK V c r) :=
  congrFun (arr_max V c) (ix2 r 0)

/-- and the second each row's hardest negative. -/
theorem an_final (c : Dev nD) (r : Fin 8192) :
    ((dat1 V c).arrAt 7 cfg1.N : S8192x1.Idx → EReal) (ix2 r 0)
      = (Finset.univ : Finset (Fin 8192)).fold min Cert.Spec.posInf (negK V c r) :=
  congrFun (arr_min V c) (ix2 r 0)

end

end Cert.KernelIdeal.Hand

end
-- ==== Proof.KI.Entry.lean ====
/-
  What the second kernel region finds in its operand arrays, read at the extended reals against the launch
  memory: the array of narrowed products holds x r k (what the first region left), the rows' sums of squares reach it
  as a column (the first region's second result) and as a row (that column reshaped), the labels as a column and as a
  row (the label vector reshaped twice). So each pair's contribution as the kernel computes it is the mathematics'
  term, and the region's two results are each row's hardest positive and hardest negative.
-/
import proofs.«181903_j28338194219418_1_alg».proof.Proof.KI.Run
import proofs.«181903_j28338194219418_1_alg».proof.Proof.KI.PrepValue
import proofs.«181903_j28338194219418_1_alg».proof.Proof.KI.PairValue
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

/-- A column cast to a row reads, at column s, the column's entry at row s. -/
theorem shapeCast_a1_1a_apply {α : Type} {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

section
variable (m : (ℓ : Loc nD τ sig) → Buf (Elt Ideal) ℓ) (ρ : Dev nD → PrngReg)

/-- The label vector at launch, at its literal type, and the label of a row. -/
abbrev labArr (c : Dev nD) : S8192.Idx → BitVec 32 := V0 m ρ c main_arg2
def labOf (c : Dev nD) (r : Fin 8192) : BitVec 32 := labArr m ρ c (ix1 r)

/-- The reshapes between the regions write neither result of the first region: the second region finds them as the
    first region's write-backs left them. -/
theorem xbArr_eq (c : Dev nD) :
    xbArr (V2 m ρ) c = ((dat0 (V0 m ρ) c).arrAt 2 cfg0.N : S8192x512.Idx → EReal) :=
  (StableHlo.after_of_writes_sub hostOps1 _ hostOps1_writes (r := main_v0_0) (by decide)).trans (W1_arr m ρ c 2)
theorem sqColArr_eq (c : Dev nD) :
    sqColArr (V2 m ρ) c = ((dat0 (V0 m ρ) c).arrAt 3 cfg0.N : S8192x1.Idx → EReal) :=
  (StableHlo.after_of_writes_sub hostOps1 _ hostOps1_writes (r := main_v0_1) (by decide)).trans (W1_arr m ρ c 3)

theorem xb_entry (c : Dev nD) (r : Fin 8192) (k : Fin 512) :
    xbArr (V2 m ρ) c (ix2 r k) = xOf (V0 m ρ) c r k := by
  rw [xbArr_eq]; exact prod_final (V0 m ρ) c r k
theorem sqCol_entry (c : Dev nD) (r : Fin 8192) :
    sqColArr (V2 m ρ) c (ix2 r 0) = Cert.Spec.sqv (xOf (V0 m ρ) c) r := by
  rw [sqColArr_eq]; exact sq_final (V0 m ρ) c r

/-- The row of sums of squares is the first region's column of them, reshaped. -/
theorem sqRowArr_eq (c : Dev nD) :
    sqRowArr (V2 m ρ) c = shapeCast S1x8192 ((dat0 (V0 m ρ) c).arrAt 3 cfg0.N : S8192x1.Idx → EReal) shapeCasts_S8192x1_S1x8192 := by
  have e3 : W1 m ρ c (Proc.devRef .tc main_v0_1) = (dat0 (V0 m ρ) c).arrAt 3 cfg0.N := W1_arr m ρ c 3
  show StableHlo.after hostOps1 (W1 m ρ c) (Proc.devRef .tc main_v3) = _
  after_results
  rw [e3]
  rfl

theorem sqRow_entry (c : Dev nD) (s : Fin 8192) :
    sqRowArr (V2 m ρ) c (ix2 0 s) = Cert.Spec.sqv (xOf (V0 m ρ) c) s := by
  rw [sqRowArr_eq]
  refine (shapeCast_a1_1a_apply _ shapeCasts_S8192x1_S1x8192 0 s).trans ?_
  exact sq_final (V0 m ρ) c s

/-- The first region writes no label: the reshapes read the label vector as launched. -/
theorem lab_kept (c : Dev nD) : W1 m ρ c (Proc.devRef .tc main_arg2) = labArr m ρ c :=
  W1_of_ne m ρ c main_arg2 (by decide)

/-- The column and the row of labels are the label vector, reshaped. -/
theorem labColArr_eq (c : Dev nD) :
    labColArr (V2 m ρ) c = shapeCast S8192x1 (labArr m ρ c) shapeCasts_S8192_S8192x1 := by
  show StableHlo.after hostOps1 (W1 m ρ c) (Proc.devRef .tc main_v1) = _
  after_results
  rw [lab_kept]
  rfl
theorem labRowArr_eq (c : Dev nD) :
    labRowArr (V2 m ρ) c = shapeCast S1x8192 (labArr m ρ c) shapeCasts_S8192_S1x8192 := by
  show StableHlo.after hostOps1 (W1 m ρ c) (Proc.devRef .tc main_v2) = _
  after_results
  rw [lab_kept]
  rfl

theorem labCol_entry (c : Dev nD) (r : Fin 8192) :
    labColArr (V2 m ρ) c (ix2 r 0) = labOf m ρ c r := by
  rw [labColArr_eq]
  exact shapeCast_a_a1_apply _ shapeCasts_S8192_S8192x1 r 0
theorem labRow_entry (c : Dev nD) (s : Fin 8192) :
    labRowArr (V2 m ρ) c (ix2 0 s) = labOf m ρ c s := by
  rw [labRowArr_eq]
  exact shapeCast_a_1a_apply _ shapeCasts_S8192_S1x8192 0 s

/-- Two rows' distance as the kernel computes it is the mathematics' distance. -/
theorem distK_entry (c : Dev nD) (r s : Fin 8192) :
    distK (V2 m ρ) c r s = Cert.Spec.dist (xOf (V0 m ρ) c) r s := by
  have hg : ∑ k : Fin 512, xbArr (V2 m ρ) c (ix2 r k) * xbArr (V2 m ρ) c (ix2 s k)
      = ∑ k : Fin 512, xOf (V0 m ρ) c r k * xOf (V0 m ρ) c s k :=
    Finset.sum_congr rfl fun k _ => by rw [xb_entry, xb_entry]
  unfold distK Cert.Spec.dist Cert.Spec.gram
  rw [sqCol_entry, sqRow_entry, hg]

/-- Each pair's contribution as the kernel computes it is the mathematics' term. -/
theorem posK_entry (c : Dev nD) (r s : Fin 8192) :
    posK (V2 m ρ) c r s = Cert.Spec.posTerm (xOf (V0 m ρ) c) (labOf m ρ c) r s := by
  unfold posK Cert.Spec.posTerm
  rw [labCol_entry, labRow_entry, distK_entry]
theorem negK_entry (c : Dev nD) (r s : Fin 8192) :
    negK (V2 m ρ) c r s = Cert.Spec.negTerm (xOf (V0 m ρ) c) (labOf m ρ c) r s := by
  unfold negK Cert.Spec.negTerm
  rw [labCol_entry, labRow_entry, distK_entry]

/-- The second region's two results are each row's hardest positive and hardest negative. -/
theorem ap_entry (c : Dev nD) (r : Fin 8192) :
    ((dat1 (V2 m ρ) c).arrAt 6 cfg1.N : S8192x1.Idx → EReal) (ix2 r 0)
      = Cert.Spec.hardPos (xOf (V0 m ρ) c) (labOf m ρ c) r :=
  (ap_final (V2 m ρ) c r).trans
    (congrArg (fun f => (Finset.univ : Finset (Fin 8192)).fold max Cert.Spec.negInf f) (funext fun s => posK_entry m ρ c r s))
theorem an_entry (c : Dev nD) (r : Fin 8192) :
    ((dat1 (V2 m ρ) c).arrAt 7 cfg1.N : S8192x1.Idx → EReal) (ix2 r 0)
      = Cert.Spec.hardNeg (xOf (V0 m ρ) c) (labOf m ρ c) r :=
  (an_final (V2 m ρ) c r).trans
    (congrArg (fun f => (Finset.univ : Finset (Fin 8192)).fold min Cert.Spec.posInf f) (funext fun s => negK_entry m ρ c r s))

end

end Cert.KernelIdeal.Hand

end
-- ==== Proof.KI.Reshape.lean ====
/-
  A column of 8192 rows reshaped to a vector holds, at row r, the column's entry at (r, 0): the two shapes list their
  elements in the same row-major order.
-/
import proofs.«181903_j28338194219418_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

theorem colToVec_apply (x : FVec Ideal S8192x1 .f32) (r : Fin 8192) :
    (shapeCast S8192 x shapeCasts_S8192x1_S8192 : S8192.Idx → EReal) (ix1 r) = (x : S8192x1.Idx → EReal) (ix2 r 0) := by
  refine shapeCast_apply x shapeCasts_S8192x1_S8192 (ix1 r) (ix2 r 0) ?_
  rw [Shape.rowMajor_val_two, Shape.rowMajor_val_one]
  show r.val * 1 + 0 = r.val
  omega

end Cert.KernelIdeal.Hand

end
-- ==== Proof.Ref.HardRef.lean ====
/-
  The reference's two row reductions read at an index, at the extended reals: row r of its greatest-positive-distance
  vector is the fold of max, over all 8192 columns s, of the distance of rows r and s where their labels agree and −∞
  where they do not; row r of its least-negative-distance vector the fold of min of +∞ / the distance. The distance is
  read off the reference's own operations one at a time: the broadcasts of the rows' sums of squares, the inner
  product against the transpose as a sum over the 512 features, the clamp and the square root.
-/
import proofs.«181903_j28338194219418_1_alg».proof.Proof.Ref.ReadP
import proofs.«181903_j28338194219418_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic ValueIdx

variable (x0 x1 : (⟨S8192x512, .f32⟩ : BufTy).Contents (Elt Ideal)) (x2 : (⟨S8192, .i32⟩ : BufTy).Contents (Elt Ideal))

/-- The two float operands and the labels at their literal types, -/
abbrev op0 : S8192x512.Idx → EReal := x0
abbrev op1 : S8192x512.Idx → EReal := x1
abbrev labs : S8192.Idx → BitVec 32 := x2
/-- their elementwise product, and the label of a row. -/
def xRef (r : Fin 8192) (k : Fin 512) : EReal := op0 x0 (ix2 r k) * op1 x1 (ix2 r k)
def labRef (r : Fin 8192) : BitVec 32 := labs x2 (ix1 r)

/-! ## The reference's stages at a pair of rows -/

/-- A select on "the two words are equal" is the `if` on their equality. -/
theorem select_cmpi_eq {α : Type} (a b : BitVec 32) (A B : α) :
    Scalar.select (IntOp.cmpi .eq a b) A B = if a = b then A else B := by
  unfold Scalar.select IntOp.cmpi
  by_cases h : a = b
  · subst h; simp
  · show (if BitVec.ofBool (a == b) = 1 then A else B) = _
    rw [if_neg h, show (a == b) = false from beq_eq_false_iff_ne.mpr h]
    exact if_neg (by decide)

/-- A row's sum of squares: the host sum from zero of the squared products along the row. -/
theorem sq_ref (r : Fin 8192) :
    (val_main_v2 (F := Ideal) x0 x1 : S8192.Idx → EReal) (ix1 r) = Cert.Spec.sqv (xRef x0 x1) r := by
  rw [val_main_v2_apply]
  have e0 : (val_main_cst (F := Ideal)) (Shape.Idx.first h_S_) = 0 := Ideal.ofBits_zero_f32
  rw [e0, zero_add]
  unfold Cert.Spec.sqv
  refine Finset.sum_congr rfl fun k _ => ?_
  have ei : idx_main_v2 (ix1 r) k = ix2 r k :=
    funext fun a => Fin.ext (by match a with | ⟨0, _⟩ => rfl | ⟨1, _⟩ => rfl)
  rw [ei]
  rfl

/-- Two rows' inner product: the product against the transpose, entry (r, s), as the sum over the features. -/
theorem gram_ref (r s : Fin 8192) :
    (val_main_v9 (F := Ideal) x0 x1 : S8192x8192.Idx → EReal) (ix2 r s) = Cert.Spec.gram (xRef x0 x1) r s := by
  rw [val_main_v9_apply]
  unfold Cert.Spec.gram
  refine Finset.sum_congr rfl fun k _ => ?_
  rw [val_main_v8_apply]
  have el : lidx_main_v9 (ix2 r s) k = ix2 r k :=
    funext fun a => Fin.ext (by match a with | ⟨0, _⟩ => rfl | ⟨1, _⟩ => rfl)
  have er : idx_main_v8 (ridx_main_v9 (ix2 r s) k) = ix2 s k :=
    funext fun a => Fin.ext (by match a with | ⟨0, _⟩ => rfl | ⟨1, _⟩ => rfl)
  rw [el, er]
  rfl

/-- Two rows' distance: the broadcast sums of squares added, twice the inner product taken off, the clamp, the root. -/
theorem dist_ref (r s : Fin 8192) :
    (val_main_v14 (F := Ideal) x0 x1 : S8192x8192.Idx → EReal) (ix2 r s) = Cert.Spec.dist (xRef x0 x1) r s := by
  rw [val_main_v14_apply, val_main_v13_apply, val_main_call0_v1_apply, val_main_v12_apply, val_main_v7_apply,
    val_main_v5_apply, val_main_v3_apply, val_main_v6_apply, val_main_v4_apply, val_main_v11_apply, val_main_v10_apply]
  have e5 : idx_main_v3 (idx_main_v5 (ix2 r s)) = ix1 r :=
    funext fun a => Fin.ext (by match a with | ⟨0, _⟩ => rfl)
  have e6 : idx_main_v4 (idx_main_v6 (ix2 r s)) = ix1 s :=
    funext fun a => Fin.ext (by match a with | ⟨0, _⟩ => rfl)
  rw [e5, e6, sq_ref, sq_ref, gram_ref]
  rfl

/-- What column s contributes to row r's maximum: the distance where the labels agree, −∞ where they do not, -/
theorem pos_ref (r s : Fin 8192) :
    (val_main_v20 (F := Ideal) x0 x1 x2 : S8192x8192.Idx → EReal) (ix2 r s)
      = Cert.Spec.posTerm (xRef x0 x1) (labRef x2) r s := by
  rw [val_main_v20_apply, val_main_v19_apply, val_main_v17_apply, val_main_v15_apply, val_main_v18_apply,
    val_main_v16_apply, val_main_call1_v1_apply, dist_ref]
  have e17 : idx_main_v15 (idx_main_v17 (ix2 r s)) = ix1 r :=
    funext fun a => Fin.ext (by match a with | ⟨0, _⟩ => rfl)
  have e18 : idx_main_v16 (idx_main_v18 (ix2 r s)) = ix1 s :=
    funext fun a => Fin.ext (by match a with | ⟨0, _⟩ => rfl)
  rw [e17, e18, select_cmpi_eq]
  rfl
/-- and to its minimum: +∞ where the labels agree, the distance where they do not. -/
theorem neg_ref (r s : Fin 8192) :
    (val_main_v22 (F := Ideal) x0 x1 x2 : S8192x8192.Idx → EReal) (ix2 r s)
      = Cert.Spec.negTerm (xRef x0 x1) (labRef x2) r s := by
  rw [val_main_v22_apply, val_main_v19_apply, val_main_v17_apply, val_main_v15_apply, val_main_v18_apply,
    val_main_v16_apply, val_main_call2_v1_apply, dist_ref]
  have e17 : idx_main_v15 (idx_main_v17 (ix2 r s)) = ix1 r :=
    funext fun a => Fin.ext (by match a with | ⟨0, _⟩ => rfl)
  have e18 : idx_main_v16 (idx_main_v18 (ix2 r s)) = ix1 s :=
    funext fun a => Fin.ext (by match a with | ⟨0, _⟩ => rfl)
  rw [e17, e18, select_cmpi_eq]
  rfl

/-- The pair matrix loses its column axis in the two reductions. -/
theorem dropsCols : S8192x8192.Reduces [1] S8192 := by decide

/-- Row r with column s put back is the pair (r, s). -/
theorem lift_row (r s : Fin 8192) : dropsCols.lift (ix1 r) s = ix2 r s :=
  funext fun c => Fin.ext (by
    show dropsCols.liftVal (ix1 r) s.val c = (ix2 r s c).val
    unfold Shape.Reduces.liftVal
    match c with
    | ⟨0, _⟩ => rfl
    | ⟨1, _⟩ => rfl)

/-- The reference's row maxima over the positives, -/
theorem hardPos_ref (r : Fin 8192) :
    (val_main_v21 (F := Ideal) x0 x1 x2 : S8192.Idx → EReal) (ix1 r) = Cert.Spec.hardPos (xRef x0 x1) (labRef x2) r := by
  unfold val_main_v21
  refine (Host.reduce_eq_fold_single (FloatOps.maximumf (F := Ideal) (φ := .f32)) (val_main_v20 (F := Ideal) x0 x1 x2)
    (val_main_cst_3 (F := Ideal)) reducesTo_S8192x8192_S8192_d1 dropsCols h_S_ (ix1 r)).trans ?_
  unfold Cert.Spec.hardPos
  show (Finset.univ : Finset (Fin 8192)).fold max Cert.Spec.negInf (fun s => val_main_v20 (F := Ideal) x0 x1 x2 (dropsCols.lift (ix1 r) s)) = _
  refine Finset.fold_congr fun s _ => ?_
  exact (congrArg (val_main_v20 (F := Ideal) x0 x1 x2) (lift_row r s)).trans (pos_ref x0 x1 x2 r s)

/-- and row minima over the negatives. -/
theorem hardNeg_ref (r : Fin 8192) :
    (val_main_v23 (F := Ideal) x0 x1 x2 : S8192.Idx → EReal) (ix1 r) = Cert.Spec.hardNeg (xRef x0 x1) (labRef x2) r := by
  unfold val_main_v23
  refine (Host.reduce_eq_fold_single (FloatOps.minimumf (F := Ideal) (φ := .f32)) (val_main_v22 (F := Ideal) x0 x1 x2)
    (val_main_cst_5 (F := Ideal)) reducesTo_S8192x8192_S8192_d1 dropsCols h_S_ (ix1 r)).trans ?_
  unfold Cert.Spec.hardNeg
  show (Finset.univ : Finset (Fin 8192)).fold min Cert.Spec.posInf (fun s => val_main_v22 (F := Ideal) x0 x1 x2 (dropsCols.lift (ix1 r) s)) = _
  refine Finset.fold_congr fun s _ => ?_
  exact (congrArg (val_main_v22 (F := Ideal) x0 x1 x2) (lift_row r s)).trans (neg_ref x0 x1 x2 r s)

end Cert.ReferenceIdeal.RefValue

end
-- ==== Proof.Bridge.lean ====
/-
  The two idealized programs end with the same result. The kernel's program leaves in its result buffer the mean of
  the margin-clamped differences of its second region's two columns; the reference's the same mean of its two row
  reductions. Row by row the columns and the reductions are the mathematics' hardest positive and hardest negative of
  the same products and labels (the two launch memories agree on the arguments), and the closing operations are the
  same function of them.
-/
import proofs.«181903_j28338194219418_1_alg».proof.Proof.KI.Result
import proofs.«181903_j28338194219418_1_alg».proof.Proof.KI.Entry
import proofs.«181903_j28338194219418_1_alg».proof.Proof.KI.Reshape
import proofs.«181903_j28338194219418_1_alg».proof.Proof.Ref.HardRef

noncomputable section

namespace Cert.Proof.Bridge

open Idealize.ShloMosaic Idealize.ShloMosaic.TcCoe Idealize.SL.Sem ValueIdx
open Cert.KernelIdeal.Hand Cert.ReferenceIdeal.ReadP Cert.ReferenceIdeal.RefValue

variable (m : (ℓ : Loc Cert.KernelIdeal.nD Cert.KernelIdeal.τ Cert.KernelIdeal.sig) → Buf (Elt Ideal) ℓ) (ρ : Dev Cert.KernelIdeal.nD → PrngReg)

/-- The kernel's products and labels, read off the launch memory, are the reference's read off equal arguments. -/
theorem x_agree (c : Dev Cert.KernelIdeal.nD)
    (x0 x1 : (⟨Cert.ReferenceIdeal.S8192x512, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1)) :
    xOf (V0 m ρ) c = xRef x0 x1 := by
  subst h0; subst h1; rfl
theorem lab_agree (c : Dev Cert.KernelIdeal.nD)
    (x2 : (⟨Cert.ReferenceIdeal.S8192, .i32⟩ : BufTy).Contents (Elt Ideal))
    (h2 : x2 = m ((c.tc : Thread Cert.KernelIdeal.nD Cert.KernelIdeal.τ).loc Cert.KernelIdeal.main_arg2)) :
    labOf m ρ c = labRef x2 := by
  subst h2; rfl

set_option maxHeartbeats 1000000 in
/-- The kernel program's result buffer at the end of its run is the reference's last stage. -/
theorem results_agree (c : Dev Cert.KernelIdeal.nD)
    (x0 x1 : (⟨Cert.ReferenceIdeal.S8192x512, .f32⟩ : BufTy).Contents (Elt Ideal))
    (x2 : (⟨Cert.ReferenceIdeal.S8192, .i32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2)) :
    (W6 m ρ c (Proc.devRef .tc Cert.KernelIdeal.main_v12) : Cert.KernelIdeal.S_.Idx → EReal)
      = val_main_v29 (F := Ideal) x0 x1 x2 := by
  rw [W6_result]
  have hap : (shapeCast Cert.KernelIdeal.S8192 (apCol m ρ c) Cert.KernelIdeal.Facts₀.shapeCasts_S8192x1_S8192 : Cert.KernelIdeal.S8192.Idx → EReal)
      = val_main_v21 (F := Ideal) x0 x1 x2 := by
    funext i
    obtain ⟨r, rfl⟩ : ∃ r : Fin 8192, i = ix1 r := ⟨i 0, eq_ix1 i⟩
    rw [colToVec_apply]
    refine (ap_entry m ρ c r).trans ?_
    rw [x_agree m ρ c x0 x1 h0 h1, lab_agree m ρ c x2 h2]
    exact (hardPos_ref x0 x1 x2 r).symm
  have han : (shapeCast Cert.KernelIdeal.S8192 (anCol m ρ c) Cert.KernelIdeal.Facts₀.shapeCasts_S8192x1_S8192 : Cert.KernelIdeal.S8192.Idx → EReal)
      = val_main_v23 (F := Ideal) x0 x1 x2 := by
    funext i
    obtain ⟨r, rfl⟩ : ∃ r : Fin 8192, i = ix1 r := ⟨i 0, eq_ix1 i⟩
    rw [colToVec_apply]
    refine (an_entry m ρ c r).trans ?_
    rw [x_agree m ρ c x0 x1 h0 h1, lab_agree m ρ c x2 h2]
    exact (hardNeg_ref x0 x1 x2 r).symm
  unfold tailK
  rw [hap, han]
  rfl

end Cert.Proof.Bridge

end
-- ==== Proof.lean ====
/-
  A hard-mining triplet loss over n = 8192 rows of d = 512 features: x = inputs · A elementwise; the squared distance of
  rows r and s is |x r|² + |x s|² − 2 ⟨x r, x s⟩; the distance its square root clamped below; per row the greatest
  distance to a row of the same label and the least distance to a row of another label; the loss the mean over the
  rows of max(0, greatest − least + ½).

  The kernel's program computes x (narrowed to bf16, which at the extended reals is the identity) and the rows' sums of
  squares in a first grid of 8 row blocks, and in a second grid of 8 × 16 (row block, column block) tiles the distances
  of a tile's 1024 × 512 pairs, folding each row's maximum over the positives and minimum over the negatives into two
  running columns that it resets at the first column block and writes out at the last. The reference computes the full
  8192 × 8192 distance matrix and reduces its rows. At the extended reals max and min are associative, commutative and
  idempotent, so a row's extreme over all columns is the running extreme over the column blocks, and a sum does not
  depend on how it is grouped: both programs end with the same mean (the algebraic claim). No rewrite was applied when
  the kernel's program was idealized (the preservation claim is trivial), and each of the three programs runs to its
  end from any memory, faults nowhere and leaves its three arguments as launched (the frames): for the kernel's
  program, at either reading of the floats, by running each grid point's body on its staging buffers and chaining the
  two grids and the host operations around them; for the reference by running its host operations in order.
-/
import proofs.«181903_j28338194219418_1_alg».proof.Defs
import proofs.«181903_j28338194219418_1_alg».proof.Proof.Gen.Kernel
import proofs.«181903_j28338194219418_1_alg».proof.Proof.Gen.KernelIdeal
import proofs.«181903_j28338194219418_1_alg».proof.Proof.Gen.ReferenceIdeal
import proofs.«181903_j28338194219418_1_alg».proof.Proof.Gen.Pre_finite_inputs
import proofs.«181903_j28338194219418_1_alg».proof.Proof.K.Run
import proofs.«181903_j28338194219418_1_alg».proof.Proof.KI.Run
import proofs.«181903_j28338194219418_1_alg».proof.Proof.Ref.RunP
import proofs.«181903_j28338194219418_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to its end and leaves its arguments as launched. -/
theorem frame_word : Cert.frame_Kernel := fun m ρ _ => Cert.Kernel.Hand.frame m ρ
/-- So does the idealized program, -/
theorem frame_ideal : Cert.frame_KernelIdeal := fun m ρ _ => Cert.KernelIdeal.Hand.frame m ρ
/-- and the reference: its run with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- From memories that agree on the three arguments the two idealized programs end with the same mean. -/
theorem algebraic : Cert.algebraic_KernelIdeal_ReferenceIdeal := by
  intro m ρ m' ρ' _ hagree
  refine ⟨fun c => Cert.KernelIdeal.Hand.W6 m ρ c (Proc.devRef .tc Cert.KernelIdeal.main_v12), ?_, ?_⟩
  · exact (θ_run Cert.KernelIdeal.defs _ _).mono (fun _ h c =>
      ⟨h c _ (Cert.KernelIdeal.Hand.mem_uc Cert.KernelIdeal.main_v12 (by decide)),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c)⟩)
      (Cert.KernelIdeal.Hand.run m ρ)
  · refine (θ_run Cert.ReferenceIdeal.defs _ _).mono (fun _ h c => ⟨(h c).1.trans ?_, (h c).2⟩)
      (Cert.ReferenceIdeal.ValueP.run (F := Ideal) m' ρ')
    exact (Cert.ReferenceIdeal.ReadP.val_main_v29_eq _ _ _).trans
      (Cert.Proof.Bridge.results_agree m ρ c _ _ _ (hagree c).1 (hagree c).2.1 (hagree c).2.2).symm

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
